-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S32768x32 : Shape := ⟨2, ![32768, 32]⟩
abbrev S2048x32768 : Shape := ⟨2, ![2048, 32768]⟩
abbrev S32768x2048 : Shape := ⟨2, ![32768, 2048]⟩
abbrev S128x128 : Shape := ⟨2, ![128, 128]⟩
abbrev S128 : Shape := ⟨1, ![128]⟩
abbrev S128x160 : Shape := ⟨2, ![128, 160]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S32768x32 : S_.BroadcastsInDim S32768x32 (![] : Fin 0 → Fin S32768x32.rank)
  reducesTo_S32768x32_S_d0_1 : S32768x32.ReducesTo [0, 1] S_
  bcast_S_S2048x32768 : S_.BroadcastsInDim S2048x32768 (![] : Fin 0 → Fin S2048x32768.rank)
  reducesTo_S2048x32768_S_d0_1 : S2048x32768.ReducesTo [0, 1] S_
  bcast_S_S32768x2048 : S_.BroadcastsInDim S32768x2048 (![] : Fin 0 → Fin S32768x2048.rank)
  reducesTo_S32768x2048_S_d0_1 : S32768x2048.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x160 : S_.BroadcastsInDim S128x160 (![] : Fin 0 → Fin S128x160.rank)
  reducesTo_S128x160_S_d0_1 : S128x160.ReducesTo [0, 1] S_

variable [Facts]

def fn_part2 {F : FTy → Type} [FloatOps F] (main_arg7 : FVec F S128x160 .f32) (main_arg8 : FVec F S128 .f32) (main_arg9 : FVec F S128x128 .f32) (main_v33 : IVec S_ 1) : IVec S_ 1 :=
  let main_v34 : FVec F S128x160 .f32 := Host.absf main_arg7
  let main_cst_12 : FVec F S_ .f32 := constant S_ .f32 0x7F800000#32
  let main_v35 : FVec F S128x160 .f32 := broadcastInDim S128x160 ![] bcast_S_S128x160 main_cst_12
  let main_v36 : IVec S128x160 1 := cmpf .olt main_v34 main_v35
  let main_c_13 : IVec S_ 1 := constantI S_ 1 1#1
  let main_v37 : IVec S_ 1 := (fun x v => Host.reduce IntOp.andi x v reducesTo_S128x160_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x128 .f32) (main_arg7 : FVec F S128x160 .f32) (main_arg8 : FVec F S128 .f32) (main_arg9 : FVec F S128x128 .f32) (main_v13 : IVec S_ 1) (main_v16 : IVec S32768x2048 1) : IVec S_ 1 :=
  let main_c_5 : IVec S_ 1 := constantI S_ 1 1#1
  let main_v17 : IVec S_ 1 := (fun x v => Host.reduce IntOp.andi x v reducesTo_S32768x2048_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S32768x128 .f32) (main_arg1 : FVec F S32768x32 .f32) (main_arg2 : FVec F S2048x32768 .f32) (main_arg3 : FVec F S32768x2048 .f32) (main_arg4 : FVec F S128x128 .f32) (main_arg5 : FVec F S128 .f32) (main_arg6 : FVec F S128x128 .f32) (main_arg7 : FVec F S128x160 .f32) (main_arg8 : FVec F S128 .f32) (main_arg9 : FVec F S128x128 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S32768x32 .f32 := Host.absf main_arg1
  let main_cst_0 : FVec F S_ .f32 := constant S_ .f32 0x7F800000#32
  let main_v5 : FVec F S32768x32 .f32 := broadcastInDim S32768x32 ![] bcast_S_S32768x32 main_cst_0
  let main_v6 : IVec S32768x32 1 := cmpf .olt main_v4 main_v5
  let main_c_1 : IVec S_ 1 := constantI S_ 1 1#1
  let main_v7 : IVec S_ 1 := (fun x v => Host.reduce IntOp.andi x v reducesTo_S32768x32_S_d0_1 h_S_) main_v6 main_c_1
  let main_v8 : IVec S_ 1 := andi main_v3 main_v7
  let main_v9 : FVec F S2048x32768 .f32 := Host.absf main_arg2
  let main_cst_2 : FVec F S_ .f32 := constant S_ .f32 0x7F800000#32
  let main_v10 : FVec F S2048x32768 .f32 := broadcastInDim S2048x32768 ![] bcast_S_S2048x32768 main_cst_2
  let main_v11 : IVec S2048x32768 1 := cmpf .olt main_v9 main_v10
  let main_c_3 : IVec S_ 1 := constantI S_ 1 1#1
  let main_v12 : IVec S_ 1 := (fun x v => Host.reduce IntOp.andi x v reducesTo_S2048x32768_S_d0_1 h_S_) main_v11 main_c_3
  let main_v13 : IVec S_ 1 := andi main_v8 main_v12
  let main_v14 : FVec F S32768x2048 .f32 := Host.absf main_arg3
  let main_cst_4 : FVec F S_ .f32 := constant S_ .f32 0x7F800000#32
  let main_v15 : FVec F S32768x2048 .f32 := broadcastInDim S32768x2048 ![] bcast_S_S32768x2048 main_cst_4
  let main_v16 : IVec S32768x2048 1 := cmpf .olt main_v14 main_v15
  fn_part1 (F := F) main_arg4 main_arg5 main_arg6 main_arg7 main_arg8 main_arg9 main_v13 main_v16
-- ==== Kernel.lean ====
abbrev S32768x128 : Shape := ⟨2, ![32768, 128]⟩
abbrev S32768x32 : Shape := ⟨2, ![32768, 32]⟩
abbrev S2048x32768 : Shape := ⟨2, ![2048, 32768]⟩
abbrev S32768x2048 : Shape := ⟨2, ![32768, 2048]⟩
abbrev S128x128 : Shape := ⟨2, ![128, 128]⟩
abbrev S128 : Shape := ⟨1, ![128]⟩
abbrev S128x160 : Shape := ⟨2, ![128, 160]⟩
abbrev S160x128 : Shape := ⟨2, ![160, 128]⟩
abbrev S1x128 : Shape := ⟨2, ![1, 128]⟩
abbrev S2048x128 : Shape := ⟨2, ![2048, 128]⟩
abbrev S1024x128 : Shape := ⟨2, ![1024, 128]⟩
abbrev S2048x1024 : Shape := ⟨2, ![2048, 1024]⟩
abbrev S1024x2048 : Shape := ⟨2, ![1024, 2048]⟩
abbrev S1024x32 : Shape := ⟨2, ![1024, 32]⟩
abbrev S1024x160 : Shape := ⟨2, ![1024, 160]⟩

abbrev nBuf : Space → Nat
  | .hbm => 19
  | .vmem => 22
  | .smem => 0
  | _ => 0

abbrev bufTy : (tb : Table) → Fin (tcTables nBuf tb) → BufTy
  | .hbm, ⟨0, _⟩ => ⟨S32768x128, .f32⟩
  | .hbm, ⟨1, _⟩ => ⟨S32768x32, .f32⟩
  | .hbm, ⟨2, _⟩ => ⟨S2048x32768, .f32⟩
  | .hbm, ⟨3, _⟩ => ⟨S32768x2048, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x160, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S160x128, .f32⟩
  | .hbm, ⟨13, _⟩ => ⟨S128x128, .f32⟩
  | .hbm, ⟨14, _⟩ => ⟨S1x128, .f32⟩
  | .hbm, ⟨15, _⟩ => ⟨S1x128, .f32⟩
  | .hbm, ⟨16, _⟩ => ⟨S32768x128, .f32⟩
  | .hbm, ⟨17, _⟩ => ⟨S2048x128, .f32⟩
  | .hbm, ⟨18, _⟩ => ⟨S32768x128, .f32⟩
  | .local _ .vmem, ⟨0, _⟩ => ⟨S1024x128, .f32⟩
  | .local _ .vmem, ⟨1, _⟩ => ⟨S1024x128, .f32⟩
  | .local _ .vmem, ⟨2, _⟩ => ⟨S2048x1024, .f32⟩
  | .local _ .vmem, ⟨3, _⟩ => ⟨S2048x1024, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1024x128, .f32⟩
  | .local _ .vmem, ⟨8, _⟩ => ⟨S1024x128, .f32⟩
  | .local _ .vmem, ⟨9, _⟩ => ⟨S2048x128, .f32⟩
  | .local _ .vmem, ⟨10, _⟩ => ⟨S1024x2048, .f32⟩
  | .local _ .vmem, ⟨11, _⟩ => ⟨S1024x2048, .f32⟩
  | .local _ .vmem, ⟨12, _⟩ => ⟨S2048x128, .f32⟩
  | .local _ .vmem, ⟨13, _⟩ => ⟨S1024x128, .f32⟩
  | .local _ .vmem, ⟨14, _⟩ => ⟨S1024x128, .f32⟩
  | .local _ .vmem, ⟨15, _⟩ => ⟨S1024x32, .f32⟩
  | .local _ .vmem, ⟨16, _⟩ => ⟨S1024x32, .f32⟩
  | .local _ .vmem, ⟨17, _⟩ => ⟨S160x128, .f32⟩
  | .local _ .vmem, ⟨18, _⟩ => ⟨S1x128, .f32⟩
  | .local _ .vmem, ⟨19, _⟩ => ⟨S128x128, .f32⟩
  | .local _ .vmem, ⟨20, _⟩ => ⟨S1024x128, .f32⟩
  | .local _ .vmem, ⟨21, _⟩ => ⟨S1024x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S160x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  transposes_S128x128_S128x128_1_0 : S128x128.Transposes [1, 0] S128x128
  transposes_S128x160_S160x128_1_0 : S128x160.Transposes [1, 0] S160x128
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S2048x1024_S2048x1024_0_0 : ∀ a, (![0, 0] : Fin 2 → Nat) a + S2048x1024.size a ≤ S2048x1024.size a
  h_S2048x1024 : 0 < S2048x1024.numel
  shapeCasts_S2048x128_S2048x128 : S2048x128.ShapeCasts S2048x128
  inb_S1024x2048_S1024x2048_0_0 : ∀ a, (![0, 0] : Fin 2 → Nat) a + S1024x2048.size a ≤ S1024x2048.size a
  h_S1024x2048 : 0 < S1024x2048.numel
  shapeCasts_S1024x128_S1024x128 : S1024x128.ShapeCasts S1024x128
  inb_S1024x32_S1024x32_0_0 : ∀ a, (![0, 0] : Fin 2 → Nat) a + S1024x32.size a ≤ S1024x32.size a
  h_S1024x32 : 0 < S1024x32.numel
  concatenates_S1024x128_S1024x32_S1024x160_d1 : Shape.Concatenates [S1024x128, S1024x32] S1024x160 1
  inb_S160x128_S160x128_0_0 : ∀ a, (![0, 0] : Fin 2 → Nat) a + S160x128.size a ≤ S160x128.size a
  h_S160x128 : 0 < S160x128.numel
  shapeCasts_S160x128_S160x128 : S160x128.ShapeCasts S160x128
  dot_S1024x128_S128x128_S1024x128_1_0_0_1_n_n_wf : DotDims.WF S1024x128 S128x128 S1024x128 [1] [0] [0] [1] [] []
  dot_S2048x1024_S1024x128_S2048x128_1_0_0_1_n_n_wf : DotDims.WF S2048x1024 S1024x128 S2048x128 [1] [0] [0] [1] [] []
  dot_S1024x2048_S2048x128_S1024x128_1_0_0_1_n_n_wf : DotDims.WF S1024x2048 S2048x128 S1024x128 [1] [0] [0] [1] [] []
  dot_S1024x160_S160x128_S1024x128_1_0_0_1_n_n_wf : DotDims.WF S1024x160 S160x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S32768x128.size a
  hwx0_0 : ∀ i : grid0.Coords, EltTy.bits .f32 = 32 ∨ (Rect.block (s := S32768x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x32768.size a
  hwx0_1 : ∀ i : grid0.Coords, EltTy.bits .f32 = 32 ∨ (Rect.block (s := S2048x32768) S2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S32768x128.size a
  hwx0_5 : ∀ i : grid0.Coords, EltTy.bits .f32 = 32 ∨ (Rect.block (s := S32768x128) S1024x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S2048x128.size a
  hwx0_6 : ∀ i : grid0.Coords, EltTy.bits .f32 = 32 ∨ (Rect.block (s := S2048x128) S2048x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S32768x2048.size a
  hwx1_0 : ∀ i : grid1.Coords, EltTy.bits .f32 = 32 ∨ (Rect.block (s := S32768x2048) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S2048x128.size a
  hwx1_1 : ∀ i : grid1.Coords, EltTy.bits .f32 = 32 ∨ (Rect.block (s := S2048x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S32768x128.size a
  hwx1_2 : ∀ i : grid1.Coords, EltTy.bits .f32 = 32 ∨ (Rect.block (s := S32768x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x32.size a ≤ S32768x32.size a
  hwx1_3 : ∀ i : grid1.Coords, EltTy.bits .f32 = 32 ∨ (Rect.block (s := S32768x32) S1024x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S160x128.size a ≤ S160x128.size a
  hwx1_4 : ∀ i : grid1.Coords, EltTy.bits .f32 = 32 ∨ (Rect.block (s := S160x128) S160x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x128.size a ≤ S32768x128.size a
  hwx1_7 : ∀ i : grid1.Coords, EltTy.bits .f32 = 32 ∨ (Rect.block (s := S32768x128) S1024x128.size (cc1_transform_7 i) (hinb1_7 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x160_S160x128_S1024x128_1_0_0_1_n_n : DotDims S1024x160 S160x128 S1024x128 where
  lhsContracting := [1]
  rhsContracting := [0]
  lhsNonContracting := [0]
  rhsNonContracting := [1]
  lhsBatch := []
  rhsBatch := []
  wf := dot_S1024x160_S160x128_S1024x128_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S1024x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S2048x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg3) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S2048x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6_0) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1024x32.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S160x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S1024x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S32768x128 : Shape := ⟨2, ![32768, 128]⟩
abbrev S32768x32 : Shape := ⟨2, ![32768, 32]⟩
abbrev S2048x32768 : Shape := ⟨2, ![2048, 32768]⟩
abbrev S32768x2048 : Shape := ⟨2, ![32768, 2048]⟩
abbrev S128x128 : Shape := ⟨2, ![128, 128]⟩
abbrev S128 : Shape := ⟨1, ![128]⟩
abbrev S128x160 : Shape := ⟨2, ![128, 160]⟩
abbrev S1x128 : Shape := ⟨2, ![1, 128]⟩
abbrev S_ : Shape := ⟨0, ![]⟩
abbrev S2048x128 : Shape := ⟨2, ![2048, 128]⟩
abbrev S32768x160 : Shape := ⟨2, ![32768, 160]⟩
abbrev S160x128 : Shape := ⟨2, ![160, 128]⟩

abbrev nBuf : Space → Nat
  | .hbm => 92
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S32768x32, .f32⟩
  | .hbm, ⟨2, _⟩ => ⟨S2048x32768, .f32⟩
  | .hbm, ⟨3, _⟩ => ⟨S32768x2048, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x160, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S32768x128, .f32⟩
  | .hbm, ⟨12, _⟩ => ⟨S1x128, .f32⟩
  | .hbm, ⟨13, _⟩ => ⟨S32768x128, .f32⟩
  | .hbm, ⟨14, _⟩ => ⟨S32768x128, .f32⟩
  | .hbm, ⟨15, _⟩ => ⟨S32768x128, .f32⟩
  | .hbm, ⟨16, _⟩ => ⟨S_, .f32⟩
  | .hbm, ⟨17, _⟩ => ⟨S32768x128, .f32⟩
  | .hbm, ⟨18, _⟩ => ⟨S32768x128, .f32⟩
  | .hbm, ⟨19, _⟩ => ⟨S32768x128, .f32⟩
  | .hbm, ⟨20, _⟩ => ⟨S32768x128, .f32⟩
  | .hbm, ⟨21, _⟩ => ⟨S32768x128, .i1⟩
  | .hbm, ⟨22, _⟩ => ⟨S32768x128, .f32⟩
  | .hbm, ⟨23, _⟩ => ⟨S32768x128, .f32⟩
  | .hbm, ⟨24, _⟩ => ⟨S32768x128, .f32⟩
  | .hbm, ⟨25, _⟩ => ⟨S32768x128, .f32⟩
  | .hbm, ⟨26, _⟩ => ⟨S32768x128, .f32⟩
  | .hbm, ⟨27, _⟩ => ⟨S32768x128, .f32⟩
  | .hbm, ⟨28, _⟩ => ⟨S32768x128, .f32⟩
  | .hbm, ⟨29, _⟩ => ⟨S32768x128, .f32⟩
  | .hbm, ⟨30, _⟩ => ⟨S32768x128, .f32⟩
  | .hbm, ⟨31, _⟩ => ⟨S128x128, .f32⟩
  | .hbm, ⟨32, _⟩ => ⟨S32768x128, .f32⟩
  | .hbm, ⟨33, _⟩ => ⟨S32768x128, .f32⟩
  | .hbm, ⟨34, _⟩ => ⟨S_, .f32⟩
  | .hbm, ⟨35, _⟩ => ⟨S32768x128, .f32⟩
  | .hbm, ⟨36, _⟩ => ⟨S32768x128, .f32⟩
  | .hbm, ⟨37, _⟩ => ⟨S32768x128, .f32⟩
  | .hbm, ⟨38, _⟩ => ⟨S32768x128, .f32⟩
  | .hbm, ⟨39, _⟩ => ⟨S32768x128, .i1⟩
  | .hbm, ⟨40, _⟩ => ⟨S32768x128, .f32⟩
  | .hbm, ⟨41, _⟩ => ⟨S32768x128, .f32⟩
  | .hbm, ⟨42, _⟩ => ⟨S32768x128, .f32⟩
  | .hbm, ⟨43, _⟩ => ⟨S32768x128, .f32⟩
  | .hbm, ⟨44, _⟩ => ⟨S32768x128, .f32⟩
  | .hbm, ⟨45, _⟩ => ⟨S32768x128, .f32⟩
  | .hbm, ⟨46, _⟩ => ⟨S32768x128, .f32⟩
  | .hbm, ⟨47, _⟩ => ⟨S32768x128, .f32⟩
  | .hbm, ⟨48, _⟩ => ⟨S32768x128, .f32⟩
  | .hbm, ⟨49, _⟩ => ⟨S2048x128, .f32⟩
  | .hbm, ⟨50, _⟩ => ⟨S32768x128, .f32⟩
  | .hbm, ⟨51, _⟩ => ⟨S32768x128, .f32⟩
  | .hbm, ⟨52, _⟩ => ⟨S32768x160, .f32⟩
  | .hbm, ⟨53, _⟩ => ⟨S160x128, .f32⟩
  | .hbm, ⟨54, _⟩ => ⟨S32768x128, .f32⟩
  | .hbm, ⟨55, _⟩ => ⟨S1x128, .f32⟩
  | .hbm, ⟨56, _⟩ => ⟨S32768x128, .f32⟩
  | .hbm, ⟨57, _⟩ => ⟨S32768x128, .f32⟩
  | .hbm, ⟨58, _⟩ => ⟨S32768x128, .f32⟩
  | .hbm, ⟨59, _⟩ => ⟨S_, .f32⟩
  | .hbm, ⟨60, _⟩ => ⟨S32768x128, .f32⟩
  | .hbm, ⟨61, _⟩ => ⟨S32768x128, .f32⟩
  | .hbm, ⟨62, _⟩ => ⟨S32768x128, .f32⟩
  | .hbm, ⟨63, _⟩ => ⟨S32768x128, .f32⟩
  | .hbm, ⟨64, _⟩ => ⟨S32768x128, .i1⟩
  | .hbm, ⟨65, _⟩ => ⟨S32768x128, .f32⟩
  | .hbm, ⟨66, _⟩ => ⟨S32768x128, .f32⟩
  | .hbm, ⟨67, _⟩ => ⟨S32768x128, .f32⟩
  | .hbm, ⟨68, _⟩ => ⟨S32768x128, .f32⟩
  | .hbm, ⟨69, _⟩ => ⟨S32768x128, .f32⟩
  | .hbm, ⟨70, _⟩ => ⟨S32768x128, .f32⟩
  | .hbm, ⟨71, _⟩ => ⟨S32768x128, .f32⟩
  | .hbm, ⟨72, _⟩ => ⟨S32768x128, .f32⟩
  | .hbm, ⟨73, _⟩ => ⟨S32768x128, .f32⟩
  | .hbm, ⟨74, _⟩ => ⟨S128x128, .f32⟩
  | .hbm, ⟨75, _⟩ => ⟨S32768x128, .f32⟩
  | .hbm, ⟨76, _⟩ => ⟨S32768x128, .f32⟩
  | .hbm, ⟨77, _⟩ => ⟨S_, .f32⟩
  | .hbm, ⟨78, _⟩ => ⟨S32768x128, .f32⟩
  | .hbm, ⟨79, _⟩ => ⟨S32768x128, .f32⟩
  | .hbm, ⟨80, _⟩ => ⟨S32768x128, .f32⟩
  | .hbm, ⟨81, _⟩ => ⟨S32768x128, .f32⟩
  | .hbm, ⟨82, _⟩ => ⟨S32768x128, .i1⟩
  | .hbm, ⟨83, _⟩ => ⟨S32768x128, .f32⟩
  | .hbm, ⟨84, _⟩ => ⟨S32768x128, .f32⟩
  | .hbm, ⟨85, _⟩ => ⟨S32768x128, .f32⟩
  | .hbm, ⟨86, _⟩ => ⟨S32768x128, .f32⟩
  | .hbm, ⟨87, _⟩ => ⟨S32768x128, .f32⟩
  | .hbm, ⟨88, _⟩ => ⟨S32768x128, .f32⟩
  | .hbm, ⟨89, _⟩ => ⟨S32768x128, .f32⟩
  | .hbm, ⟨90, _⟩ => ⟨S32768x128, .f32⟩
  | .hbm, ⟨91, _⟩ => ⟨S32768x128, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_call1_v0 : Ref sig .tc := ⟨.hbm, 33, rfl⟩
abbrev main_call1_call0_cst : Ref sig .tc := ⟨.hbm, 34, rfl⟩
abbrev main_call1_call0_v0 : Ref sig .tc := ⟨.hbm, 35, rfl⟩
abbrev main_call1_call0_v1 : Ref sig .tc := ⟨.hbm, 36, rfl⟩
abbrev main_call1_call0_v2 : Ref sig .tc := ⟨.hbm, 37, rfl⟩
abbrev main_call1_call0_v3 : Ref sig .tc := ⟨.hbm, 38, rfl⟩
abbrev main_call1_call0_v4 : Ref sig .tc := ⟨.hbm, 39, rfl⟩
abbrev main_call1_call0_v5 : Ref sig .tc := ⟨.hbm, 40, rfl⟩
abbrev main_call1_call0_v6 : Ref sig .tc := ⟨.hbm, 41, rfl⟩
abbrev main_call1_call0_v7 : Ref sig .tc := ⟨.hbm, 42, rfl⟩
abbrev main_call1_call0_v8 : Ref sig .tc := ⟨.hbm, 43, rfl⟩
abbrev main_call1_call0_v9 : Ref sig .tc := ⟨.hbm, 44, rfl⟩
abbrev main_call1_call0_v10 : Ref sig .tc := ⟨.hbm, 45, rfl⟩
abbrev main_call1_call0_v11 : Ref sig .tc := ⟨.hbm, 46, rfl⟩
abbrev main_call1_v1 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_call2_v0 : Ref sig .tc := ⟨.hbm, 58, rfl⟩
abbrev main_call2_call0_cst : Ref sig .tc := ⟨.hbm, 59, rfl⟩
abbrev main_call2_call0_v0 : Ref sig .tc := ⟨.hbm, 60, rfl⟩
abbrev main_call2_call0_v1 : Ref sig .tc := ⟨.hbm, 61, rfl⟩
abbrev main_call2_call0_v2 : Ref sig .tc := ⟨.hbm, 62, rfl⟩
abbrev main_call2_call0_v3 : Ref sig .tc := ⟨.hbm, 63, rfl⟩
abbrev main_call2_call0_v4 : Ref sig .tc := ⟨.hbm, 64, rfl⟩
abbrev main_call2_call0_v5 : Ref sig .tc := ⟨.hbm, 65, rfl⟩
abbrev main_call2_call0_v6 : Ref sig .tc := ⟨.hbm, 66, rfl⟩
abbrev main_call2_call0_v7 : Ref sig .tc := ⟨.hbm, 67, rfl⟩
abbrev main_call2_call0_v8 : Ref sig .tc := ⟨.hbm, 68, rfl⟩
abbrev main_call2_call0_v9 : Ref sig .tc := ⟨.hbm, 69, rfl⟩
abbrev main_call2_call0_v10 : Ref sig .tc := ⟨.hbm, 70, rfl⟩
abbrev main_call2_call0_v11 : Ref sig .tc := ⟨.hbm, 71, rfl⟩
abbrev main_call2_v1 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_call3_v0 : Ref sig .tc := ⟨.hbm, 76, rfl⟩
abbrev main_call3_call0_cst : Ref sig .tc := ⟨.hbm, 77, rfl⟩
abbrev main_call3_call0_v0 : Ref sig .tc := ⟨.hbm, 78, rfl⟩
abbrev main_call3_call0_v1 : Ref sig .tc := ⟨.hbm, 79, rfl⟩
abbrev main_call3_call0_v2 : Ref sig .tc := ⟨.hbm, 80, rfl⟩
abbrev main_call3_call0_v3 : Ref sig .tc := ⟨.hbm, 81, rfl⟩
abbrev main_call3_call0_v4 : Ref sig .tc := ⟨.hbm, 82, rfl⟩
abbrev main_call3_call0_v5 : Ref sig .tc := ⟨.hbm, 83, rfl⟩
abbrev main_call3_call0_v6 : Ref sig .tc := ⟨.hbm, 84, rfl⟩
abbrev main_call3_call0_v7 : Ref sig .tc := ⟨.hbm, 85, rfl⟩
abbrev main_call3_call0_v8 : Ref sig .tc := ⟨.hbm, 86, rfl⟩
abbrev main_call3_call0_v9 : Ref sig .tc := ⟨.hbm, 87, rfl⟩
abbrev main_call3_call0_v10 : Ref sig .tc := ⟨.hbm, 88, rfl⟩
abbrev main_call3_call0_v11 : Ref sig .tc := ⟨.hbm, 89, rfl⟩
abbrev main_call3_v1 : Ref sig .tc := ⟨.hbm, 90, rfl⟩
abbrev main_v21 : Ref sig .tc := ⟨.hbm, 91, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  concatenates_S32768x128_S32768x32_S32768x160_d1 : Shape.Concatenates [S32768x128, S32768x32] S32768x160 1
  transposes_S128x160_S160x128_1_0 : S128x160.Transposes [1, 0] S160x128
  dot_S32768x128_S128x128_S32768x128_1_0_0_1_n_n_wf : DotDims.WF S32768x128 S128x128 S32768x128 [1] [0] [0] [1] [] []
  dot_S2048x32768_S32768x128_S2048x128_1_0_0_1_n_n_wf : DotDims.WF S2048x32768 S32768x128 S2048x128 [1] [0] [0] [1] [] []
  dot_S32768x2048_S2048x128_S32768x128_1_0_0_1_n_n_wf : DotDims.WF S32768x2048 S2048x128 S32768x128 [1] [0] [0] [1] [] []
  dot_S32768x160_S160x128_S32768x128_1_0_0_1_n_n_wf : DotDims.WF S32768x160 S160x128 S32768x128 [1] [0] [0] [1] [] []

variable [Facts₀]

def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf
def dot_S2048x32768_S32768x128_S2048x128_1_0_0_1_n_n : DotDims S2048x32768 S32768x128 S2048x128 where
  lhsContracting := [1]
  rhsContracting := [0]
  lhsNonContracting := [0]
  rhsNonContracting := [1]
  lhsBatch := []
  rhsBatch := []
  wf := dot_S2048x32768_S32768x128_S2048x128_1_0_0_1_n_n_wf
def dot_S32768x2048_S2048x128_S32768x128_1_0_0_1_n_n : DotDims S32768x2048 S2048x128 S32768x128 where
  lhsContracting := [1]
  rhsContracting := [0]
  lhsNonContracting := [0]
  rhsNonContracting := [1]
  lhsBatch := []
  rhsBatch := []
  wf := dot_S32768x2048_S2048x128_S32768x128_1_0_0_1_n_n_wf
def dot_S32768x160_S160x128_S32768x128_1_0_0_1_n_n : DotDims S32768x160 S160x128 S32768x128 where
  lhsContracting := [1]
  rhsContracting := [0]
  lhsNonContracting := [0]
  rhsNonContracting := [1]
  lhsBatch := []
  rhsBatch := []
  wf := dot_S32768x160_S160x128_S32768x128_1_0_0_1_n_n_wf

class Facts : Prop extends Facts₀ where

variable [Facts]
-- ==== Proof.Spec.lean ====
/-
  The mathematics both programs compute, on the extended reals, index by index.

  An edge-wise two-layer perceptron with the log-sigmoid as its nonlinearity (mlpRow) is applied twice:
  to each edge's state row (giving the message array s), and to each edge's row of "aggregated messages beside
  features" (giving the output). Between the two, messages are summed into nodes through the incidence matrix
  (aggOf: agg = M · s) and scattered back to the edges through its transpose, the edge's own message taken off
  (msgRow: Mᵀ · agg − s), then laid beside the edge's features (catRow).

  The log-sigmoid is spelt as both programs spell it: log σ(x) = −softplus(−x) with
  softplus(y) = max(y, 0) + log(1 + e^{−|y|}), |y| = max(y, −y).
-/
import Idealize.ShloMosaic.PureOps.Ideal
import Idealize.ShloMosaic.Lib.ValueIdx

noncomputable section

open scoped BigOperators

namespace Cert.EdgeMlp

open Idealize.ShloMosaic Idealize.ShloMosaic.ValueIdx

/-- A rank-2 array of extended reals. -/
abbrev Arr (a b : Nat) := (⟨2, ![a, b]⟩ : Shape).Idx → EReal
/-- A rank-1 array of extended reals. -/
abbrev Arr1 (a : Nat) := (⟨1, ![a]⟩ : Shape).Idx → EReal

/-- log σ(x) = −(max(−x, 0) + log(1 + e^{−|−x|})) on the extended reals. -/
def lsig (x : EReal) : EReal :=
  -(max (-x) 0 + Ideal.log1p (Ideal.exp (-(max (-x) (-(-x))))))

/-- The transposed array: entry (i, j) is entry (j, i). -/
def tr {a b : Nat} (W : Arr a b) : Arr b a := fun i => W (ix2 (i 1) (i 0))

/-- A vector as a one-row matrix. -/
def row {n : Nat} (v : Arr1 n) : Arr 1 n := fun i => v (ix1 (i 1))

/-- One row through the two-layer perceptron: x ↦ log σ(log σ(x·A + r)·B), at output column j.
    A is K × 128 (input-major), r the bias as a one-row matrix, B is 128 × 128. -/
def mlpRow {K : Nat} (x : Fin K → EReal) (A : Arr K 128) (r : Arr 1 128) (B : Arr 128 128) (j : Fin 128) : EReal :=
  lsig (∑ k : Fin 128, lsig ((∑ q : Fin K, x q * A (ix2 q k)) + r (ix2 (0 : Fin 1) k)) * B (ix2 k j))

/-- The message array: every edge's state row through the first perceptron. -/
def sOf (X : Arr 32768 128) (A : Arr 128 128) (r : Arr 1 128) (B : Arr 128 128) : Arr 32768 128 :=
  fun i => mlpRow (fun q => X (ix2 (i 0) q)) A r B (i 1)

/-- The per-node aggregate: agg[n, d] = ∑ₑ M[n, e] · s[e, d]. -/
def aggOf (M : Arr 2048 32768) (S : Arr 32768 128) : Arr 2048 128 :=
  fun i => ∑ e : Fin 32768, M (ix2 (i 0) e) * S (ix2 e (i 1))

/-- An edge's aggregated message without its own: (Mᵀ · agg)[e, d] − s[e, d]. -/
def msgRow (MT : Arr 32768 2048) (Agg : Arr 2048 128) (S : Arr 32768 128) (e : Fin 32768) (d : Fin 128) : EReal :=
  (∑ n : Fin 2048, MT (ix2 e n) * Agg (ix2 n d)) - S (ix2 e d)

/-- That message row laid beside the edge's 32 features: 160 columns. -/
def catRow (MT : Arr 32768 2048) (Agg : Arr 2048 128) (S : Arr 32768 128) (Fe : Arr 32768 32)
    (e : Fin 32768) (q : Fin 160) : EReal :=
  if h : q.val < 128 then msgRow MT Agg S e ⟨q.val, h⟩ else Fe (ix2 e ⟨q.val - 128, by have := q.isLt; omega⟩)

/-- The output array: every edge's concatenated row through the second perceptron. -/
def outOf (MT : Arr 32768 2048) (Agg : Arr 2048 128) (S : Arr 32768 128) (Fe : Arr 32768 32)
    (A : Arr 160 128) (r : Arr 1 128) (B : Arr 128 128) : Arr 32768 128 :=
  fun i => mlpRow (catRow MT Agg S Fe (i 0)) A r B (i 1)

/-- The whole computation from the ten inputs (weights row-major, out × in, as the inputs are given). -/
def out (X : Arr 32768 128) (Fe : Arr 32768 32) (M : Arr 2048 32768) (MT : Arr 32768 2048)
    (W1m : Arr 128 128) (b1m : Arr1 128) (W2m : Arr 128 128) (W1a : Arr 128 160) (b1a : Arr1 128) (W2a : Arr 128 128) :
    Arr 32768 128 :=
  outOf MT (aggOf M (sOf X (tr W1m) (row b1m) (tr W2m))) (sOf X (tr W1m) (row b1m) (tr W2m)) Fe
    (tr W1a) (row b1a) (tr W2a)

end Cert.EdgeMlp

end
-- ==== Proof.LibSumBlocks.lean ====
/-
  A finite sum over n·b consecutive indices, cut into n blocks of b: the sum over the blocks of the sums inside them.
  Stated over any commutative monoid (the extended reals' addition is one), with the index in block t at offset k
  written t·b + k, and the partial version: the first t+1 blocks' sums are the first t blocks' plus block t's.
-/
import Mathlib.Algebra.BigOperators.Fin
import Mathlib.Logic.Equiv.Fin.Basic

open scoped BigOperators

namespace Cert.EdgeMlp

/-- The index at offset `k` inside block `t` of `n` blocks of `b`. -/
def blockIdx {n b : Nat} (t : Fin n) (k : Fin b) : Fin (n * b) :=
  ⟨t.val * b + k.val, by
    have ht := t.isLt; have hk := k.isLt
    calc t.val * b + k.val < t.val * b + b := Nat.add_lt_add_left hk _
      _ = (t.val + 1) * b := (Nat.succ_mul _ _).symm
      _ ≤ n * b := Nat.mul_le_mul_right b ht⟩

@[simp] theorem blockIdx_val {n b : Nat} (t : Fin n) (k : Fin b) : (blockIdx t k).val = t.val * b + k.val := rfl

/-- Every index of `Fin (n * b)` is exactly one (block, offset) pair. -/
def blockEquiv (n b : Nat) : Fin n × Fin b ≃ Fin (n * b) where
  toFun p := blockIdx p.1 p.2
  invFun e := (⟨e.val / b, by
      have hb : 0 < b := Nat.pos_of_ne_zero (by rintro rfl; exact absurd e.isLt (by simp))
      exact Nat.div_lt_of_lt_mul (lt_of_lt_of_eq e.isLt (Nat.mul_comm n b))⟩,
    ⟨e.val % b, Nat.mod_lt _ (Nat.pos_of_ne_zero (by rintro rfl; exact absurd e.isLt (by simp)))⟩)
  left_inv p := by
    obtain ⟨t, k⟩ := p
    have hb : 0 < b := Nat.lt_of_le_of_lt (Nat.zero_le _) k.isLt
    refine Prod.ext (Fin.ext ?_) (Fin.ext ?_)
    · show (t.val * b + k.val) / b = t.val
      rw [Nat.mul_comm, Nat.mul_add_div hb, Nat.div_eq_of_lt k.isLt, Nat.add_zero]
    · show (t.val * b + k.val) % b = k.val
      rw [Nat.mul_comm, Nat.mul_add_mod, Nat.mod_eq_of_lt k.isLt]
  right_inv e := Fin.ext (by
    show e.val / b * b + e.val % b = e.val
    rw [Nat.mul_comm]; exact Nat.div_add_mod _ _)

/-- A sum over `n * b` indices is the sum over the `n` blocks of the sums over each block's `b` offsets. -/
theorem sum_blocks {M : Type*} [AddCommMonoid M] (n b : Nat) (f : Fin (n * b) → M) :
    ∑ e : Fin (n * b), f e = ∑ t : Fin n, ∑ k : Fin b, f (blockIdx t k) := by
  rw [← Equiv.sum_comp (blockEquiv n b) f, Fintype.sum_prod_type]
  rfl

/-- The same with the blocks counted by a natural below `n`: what an accumulation over the points of a grid builds. -/
theorem sum_blocks_range {M : Type*} [AddCommMonoid M] (n b : Nat) (f : Fin (n * b) → M) :
    ∑ e : Fin (n * b), f e
      = ∑ t ∈ Finset.range n, if h : t < n then ∑ k : Fin b, f (blockIdx ⟨t, h⟩ k) else 0 := by
  rw [sum_blocks, ← Fin.sum_univ_eq_sum_range (fun t => if h : t < n then ∑ k : Fin b, f (blockIdx ⟨t, h⟩ k) else 0) n]
  exact Finset.sum_congr rfl fun t _ => by rw [dif_pos t.isLt]

end Cert.EdgeMlp
-- ==== Proof.StageOne.lean ====
/-
  The first region of the kernel: 32 grid points, each taking 1024 edges.

  At point t the body puts rows 1024·t … 1024·t + 1023 of the edge states through the two-layer perceptron with the
  log-sigmoid (two products into a zero accumulator, each followed by the log-sigmoid spelt with 0 − x for every
  negation) and stores the 1024 × 128 result as block t of the message array; and it adds, into one 2048 × 128 block
  that stays in place for the whole grid, columns 1024·t … 1024·t + 1023 of the incidence matrix times that message
  block. The first point resets the block to zero before adding; the block is written back once, after the last point.

  So the message array ends as the specification's sOf, block by block, and the aggregate block after point n holds the
  partial sums over the first n + 1 blocks of 1024 edges — by induction on the point — which after point 31 is the sum
  over all 32768 edges, the specification's aggOf. Only re-indexing of finite sums and 0 + x = x are used.
-/
import proofs.«152187_j6468220748479_1_alg».proof.Proof.Gen.KernelIdeal.Frame
import proofs.«152187_j6468220748479_1_alg».proof.Proof.Spec
import proofs.«152187_j6468220748479_1_alg».proof.Proof.LibSumBlocks
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.StageOne

open Idealize.ShloMosaic Idealize.ShloMosaic.TcCoe Idealize.SL.Sem Idealize.ShloMosaic.ValueIdx
open Cert.KernelIdeal Cert.KernelIdeal.Gen Cert.EdgeMlp

/-! ## What each case of the body leaves in the two output blocks, as terms of the loaded blocks -/

section Pieces
variable {F : FTy → Type} [FloatOps F]

theorem hz : (![0, 0] : Fin 2 → Nat) = fun _ => 0 := funext fun a => by fin_cases a <;> rfl

/-- The message block the body stores: the second log-sigmoid over the second product of the loaded blocks. -/
def sPay (x0 : Vec F S1024x128 .f32) (x2 : Vec F S128x128 .f32)
    (x3 : Vec F S1x128 .f32) (x4 : Vec F S128x128 .f32) : Vec F S1024x128 .f32 :=
  k0_pay1 (k0_pay4 x0 x2 x3 x4) (Scalar.ofBits .f32 0x00000000#32) (k0_pay5 x0 x2 x3 x4)

/-- The aggregate block the body stores: what the block held (acc) plus the mask block times the message block. -/
def aggPay (x0 : Vec F S1024x128 .f32) (x1 : Vec F S2048x1024 .f32) (x2 : Vec F S128x128 .f32)
    (x3 : Vec F S1x128 .f32) (x4 : Vec F S128x128 .f32) (acc : Vec F S2048x128 .f32) : Vec F S2048x128 .f32 :=
  k0_pay2 (k0_pay4 x0 x2 x3 x4) (Scalar.ofBits .f32 0x00000000#32) (k0_pay5 x0 x2 x3 x4) x1 acc

theorem pc5_A (c : Dev nD) (i : grid0.Coords) (a1 : Memref sig .tc .vmem S1024x128 .f32) (h1 : a1.IsWhole)
    (a2 : Memref sig .tc .vmem S2048x1024 .f32) (h2 : a2.IsWhole) (a3 : Memref sig .tc .vmem S128x128 .f32) (h3 : a3.IsWhole)
    (a4 : Memref sig .tc .vmem S1x128 .f32) (h4 : a4.IsWhole) (a5 : Memref sig .tc .vmem S128x128 .f32) (h5 : a5.IsWhole)
    (a6 : Memref sig .tc .vmem S1024x128 .f32) (h6 : a6.IsWhole) (a7 : Memref sig .tc .vmem S2048x128 .f32) (h7 : a7.IsWhole)
    (hc : cond0_0 i) (x0 : Vec F S1024x128 .f32) (x1 : Vec F S2048x1024 .f32) (x2 : Vec F S128x128 .f32)
    (x3 : Vec F S1x128 .f32) (x4 : Vec F S128x128 .f32) :
    out0_A_5 c i a1 h1 a2 h2 a3 h3 a4 h4 a5 h5 a6 h6 a7 h7 hc x0 x1 x2 x3 x4 = sPay x0 x2 x3 x4 := by
  unfold out0_A_5 sPay
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S1024x128) hz, View.ld_unit_zero (S := S2048x1024) hz, View.ld_unit_zero (S := S128x128) hz,
    View.ld_unit_zero (S := S1x128) hz, View.ld_unit_zero (S := S2048x128) hz]

theorem pc5_B (c : Dev nD) (i : grid0.Coords) (a1 : Memref sig .tc .vmem S1024x128 .f32) (h1 : a1.IsWhole)
    (a2 : Memref sig .tc .vmem S2048x1024 .f32) (h2 : a2.IsWhole) (a3 : Memref sig .tc .vmem S128x128 .f32) (h3 : a3.IsWhole)
    (a4 : Memref sig .tc .vmem S1x128 .f32) (h4 : a4.IsWhole) (a5 : Memref sig .tc .vmem S128x128 .f32) (h5 : a5.IsWhole)
    (a6 : Memref sig .tc .vmem S1024x128 .f32) (h6 : a6.IsWhole) (a7 : Memref sig .tc .vmem S2048x128 .f32) (h7 : a7.IsWhole)
    (hc : ¬cond0_0 i) (x0 : Vec F S1024x128 .f32) (x1 : Vec F S2048x1024 .f32) (x2 : Vec F S128x128 .f32)
    (x3 : Vec F S1x128 .f32) (x4 : Vec F S128x128 .f32) (xo6 : Vec F S2048x128 .f32) :
    out0_B_5 c i a1 h1 a2 h2 a3 h3 a4 h4 a5 h5 a6 h6 a7 h7 hc x0 x1 x2 x3 x4 xo6 = sPay x0 x2 x3 x4 := by
  unfold out0_B_5 sPay
  rw [View.read_writes_eq_canon _ _ _ (cover0_B_5 c i a1 h1 a2 h2 a3 h3 a4 h4 a5 h5 a6 h6 a7 h7 hc x0 x1 x2 x3 x4 xo6)]
  unfold kernelRun0_B
  dsimp only
  sl_unfold_words
  rw [View.canon_unit_zero hz]
  simp only [View.readAt_eq_ld, h1.read_unread, h2.read_unread, h3.read_unread, h4.read_unread, h5.read_unread,
    View.ld_unit_zero (S := S1024x128) hz, View.ld_unit_zero (S := S2048x1024) hz, View.ld_unit_zero (S := S128x128) hz,
    View.ld_unit_zero (S := S1x128) hz, View.ld_unit_zero (S := S2048x128) hz]

/-- At the first point the aggregate block is reset to the zero splat and then added into. -/
theorem pc6_A (c : Dev nD) (i : grid0.Coords) (a1 : Memref sig .tc .vmem S1024x128 .f32) (h1 : a1.IsWhole)
    (a2 : Memref sig .tc .vmem S2048x1024 .f32) (h2 : a2.IsWhole) (a3 : Memref sig .tc .vmem S128x128 .f32) (h3 : a3.IsWhole)
    (a4 : Memref sig .tc .vmem S1x128 .f32) (h4 : a4.IsWhole) (a5 : Memref sig .tc .vmem S128x128 .f32) (h5 : a5.IsWhole)
    (a6 : Memref sig .tc .vmem S1024x128 .f32) (h6 : a6.IsWhole) (a7 : Memref sig .tc .vmem S2048x128 .f32) (h7 : a7.IsWhole)
    (hc : cond0_0 i) (x0 : Vec F S1024x128 .f32) (x1 : Vec F S2048x1024 .f32) (x2 : Vec F S128x128 .f32)
    (x3 : Vec F S1x128 .f32) (x4 : Vec F S128x128 .f32) :
    out0_A_6 c i a1 h1 a2 h2 a3 h3 a4 h4 a5 h5 a6 h6 a7 h7 hc x0 x1 x2 x3 x4 = aggPay x0 x1 x2 x3 x4 (k0_pay3 (F := F)) := by
  unfold out0_A_6 aggPay
  rw [View.read_writes_eq_canon _ _ _ (cover0_A_6 c i a1 h1 a2 h2 a3 h3 a4 h4 a5 h5 a6 h6 a7 h7 hc x0 x1 x2 x3 x4)]
  unfold kernelRun0_A
  dsimp only
  sl_unfold_words
  rw [View.canon_cons_unit_zero (S := S2048x128) hz, View.readCov_unit_zero (S := S2048x128) _ hz]
  simp only [View.readAt_eq_ld, h1.read_unread, h2.read_unread, h3.read_unread, h4.read_unread, h5.read_unread,
    View.ld_unit_zero (S := S1024x128) hz, View.ld_unit_zero (S := S2048x1024) hz, View.ld_unit_zero (S := S128x128) hz,
    View.ld_unit_zero (S := S1x128) hz, View.ld_unit_zero (S := S2048x128) hz]

/-- At every later point it is added into what the point before left. -/
theorem pc6_B (c : Dev nD) (i : grid0.Coords) (a1 : Memref sig .tc .vmem S1024x128 .f32) (h1 : a1.IsWhole)
    (a2 : Memref sig .tc .vmem S2048x1024 .f32) (h2 : a2.IsWhole) (a3 : Memref sig .tc .vmem S128x128 .f32) (h3 : a3.IsWhole)
    (a4 : Memref sig .tc .vmem S1x128 .f32) (h4 : a4.IsWhole) (a5 : Memref sig .tc .vmem S128x128 .f32) (h5 : a5.IsWhole)
    (a6 : Memref sig .tc .vmem S1024x128 .f32) (h6 : a6.IsWhole) (a7 : Memref sig .tc .vmem S2048x128 .f32) (h7 : a7.IsWhole)
    (hc : ¬cond0_0 i) (x0 : Vec F S1024x128 .f32) (x1 : Vec F S2048x1024 .f32) (x2 : Vec F S128x128 .f32)
    (x3 : Vec F S1x128 .f32) (x4 : Vec F S128x128 .f32) (xo6 : Vec F S2048x128 .f32) :
    out0_B_6 c i a1 h1 a2 h2 a3 h3 a4 h4 a5 h5 a6 h6 a7 h7 hc x0 x1 x2 x3 x4 xo6 = aggPay x0 x1 x2 x3 x4 xo6 := by
  unfold out0_B_6 aggPay
  rw [View.read_writes_eq_canon _ _ _ (cover0_B_6 c i a1 h1 a2 h2 a3 h3 a4 h4 a5 h5 a6 h6 a7 h7 hc x0 x1 x2 x3 x4 xo6)]
  unfold kernelRun0_B
  dsimp only
  sl_unfold_words
  rw [View.canon_unit_zero hz]
  simp only [View.readAt_eq_ld, h1.read_unread, h2.read_unread, h3.read_unread, h4.read_unread, h5.read_unread, h7.read_unread,
    View.ld_unit_zero (S := S1024x128) hz, View.ld_unit_zero (S := S2048x1024) hz, View.ld_unit_zero (S := S128x128) hz,
    View.ld_unit_zero (S := S1x128) hz, View.ld_unit_zero (S := S2048x128) hz]

end Pieces

/-! ## The two products of the body, read at an index over the extended reals -/

section Products

theorem lhs_mmA_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_mmA_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_mmA_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_mmA_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The product into a zero accumulator, at (r, j): the plain sum over the contraction. -/
theorem mmA_apply (a : FVec Ideal S1024x128 .bf16) (b : FVec Ideal S128x128 .bf16) (r : Fin 1024) (j : Fin 128) :
    matmul dot_S1024x128_S128x128_S1024x128_1_0_0_1_n_n none a b (constant S1024x128 .f32 0x00000000#32) (ix2 r j)
      = ∑ k : Fin 128, a (ix2 r k) * b (ix2 k j) := by
  refine (Ideal.matmul_constant_zero_apply dot_S1024x128_S128x128_S1024x128_1_0_0_1_n_n none a b (ix2 r j)).trans ?_
  rw [← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 r j) ((contrEquiv1 dot_S1024x128_S128x128_S1024x128_1_0_0_1_n_n 128 rfl rfl).symm k) = ix2 r k := funext fun ax => Fin.ext (by
    match ax with
    | ⟨0, _⟩ => exact lhs_mmA_0 _ _
    | ⟨1, _⟩ => exact (lhs_mmA_1 _ _).trans hk)
  have er : dot_S1024x128_S128x128_S1024x128_1_0_0_1_n_n.rhsIdx (ix2 r j) ((contrEquiv1 dot_S1024x128_S128x128_S1024x128_1_0_0_1_n_n 128 rfl rfl).symm k) = ix2 k j := funext fun ax => Fin.ext (by
    match ax with
    | ⟨0, _⟩ => exact (rhs_mmA_0 _ _).trans hk
    | ⟨1, _⟩ => exact rhs_mmA_1 _ _)
  rw [el, er]

theorem lhs_mmB_0 (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
theorem lhs_mmB_1 (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
theorem rhs_mmB_0 (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
theorem rhs_mmB_1 (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- The product into a zero accumulator, at (r, j): the plain sum over the contraction. -/
theorem mmB_apply (a : FVec Ideal S2048x1024 .bf16) (b : FVec Ideal S1024x128 .bf16) (r : Fin 2048) (j : Fin 128) :
    matmul dot_S2048x1024_S1024x128_S2048x128_1_0_0_1_n_n none a b (constant S2048x128 .f32 0x00000000#32) (ix2 r j)
      = ∑ k : Fin 1024, a (ix2 r k) * b (ix2 k j) := by
  refine (Ideal.matmul_constant_zero_apply dot_S2048x1024_S1024x128_S2048x128_1_0_0_1_n_n none a b (ix2 r j)).trans ?_
  rw [← Equiv.sum_comp (contrEquiv1 dot_S2048x1024_S1024x128_S2048x128_1_0_0_1_n_n 1024 rfl rfl).symm]
  refine Finset.sum_congr rfl fun k _ => ?_
  have hk := contrEquiv1_symm_val dot_S2048x1024_S1024x128_S2048x128_1_0_0_1_n_n 1024 rfl rfl k
  have el : dot_S2048x1024_S1024x128_S2048x128_1_0_0_1_n_n.lhsIdx (ix2 r j) ((contrEquiv1 dot_S2048x1024_S1024x128_S2048x128_1_0_0_1_n_n 1024 rfl rfl).symm k) = ix2 r k := funext fun ax => Fin.ext (by
    match ax with
    | ⟨0, _⟩ => exact lhs_mmB_0 _ _
    | ⟨1, _⟩ => exact (lhs_mmB_1 _ _).trans hk)
  have er : dot_S2048x1024_S1024x128_S2048x128_1_0_0_1_n_n.rhsIdx (ix2 r j) ((contrEquiv1 dot_S2048x1024_S1024x128_S2048x128_1_0_0_1_n_n 1024 rfl rfl).symm k) = ix2 k j := funext fun ax => Fin.ext (by
    match ax with
    | ⟨0, _⟩ => exact (rhs_mmB_0 _ _).trans hk
    | ⟨1, _⟩ => exact rhs_mmB_1 _ _)
  rw [el, er]

end Products

/-! ## The body's arithmetic at an index, over the extended reals -/

section Payloads

/-- "x ≠ x" is never true of an extended real. -/
theorem cmp_one_self (a : EReal) : Ideal.cmp .one a a = 0#1 := by
  simp [Ideal.cmp]

/-- The log-sigmoid as the body spells it — every negation written 0 − x, and a select on "y ≠ y", which takes its
    last operand — is the specification's log-sigmoid. -/
theorem lsig_spelt (x : EReal) :
    0 - Scalar.select (Ideal.cmp .one ((0 - x) - 0) ((0 - x) - 0)) ((0 - x) + 0)
          (max (0 - x) 0 + Ideal.log1p (Ideal.exp (0 - max ((0 - x) - 0) (-((0 - x) - 0)))))
      = lsig x := by
  rw [cmp_one_self, select_zero]
  unfold lsig
  simp only [zero_sub, sub_zero]

theorem exp_apply {s : Shape} {φ : FTy} (a : FVec Ideal s φ) (i : s.Idx) : exp a i = Ideal.exp (a i) := rfl
theorem log1p_apply {s : Shape} {φ : FTy} (a : FVec Ideal s φ) (i : s.Idx) : log1p a i = Ideal.log1p (a i) := rfl
theorem absf_apply {s : Shape} {φ : FTy} (a : FVec Ideal s φ) (i : s.Idx) : absf a i = max (a i) (-(a i)) := rfl

/-- The negated second product at (r, j): the hidden row — the log-sigmoid of the first product plus the bias —
    against column j of the second weight block. -/
theorem pay4_apply (x0 : Vec Ideal S1024x128 .f32) (x2 : Vec Ideal S128x128 .f32) (x3 : Vec Ideal S1x128 .f32)
    (x4 : Vec Ideal S128x128 .f32) (r : Fin 1024) (j : Fin 128) :
    k0_pay4 x0 x2 x3 x4 (ix2 r j)
      = 0 - ∑ k : Fin 128, lsig ((∑ q : Fin 128, x0 (ix2 r q) * x2 (ix2 q k)) + x3 (ix2 (0 : Fin 1) k)) * x4 (ix2 k j) := by
  unfold k0_pay4
  simp only [subf_apply, broadcast_apply, mmA_apply, truncf_apply, shapeCast_self, select_apply, cmpf_apply, addf_apply,
    maximumf_apply, absf_apply, exp_apply, log1p_apply, broadcastTo_1b_ab_apply, Scalar.ofBits, Ideal.ofBits_def,
    Ideal.ofBits_zero_f32, Ideal.cmpf_def, lsig_spelt]

theorem pay5_apply (x0 : Vec Ideal S1024x128 .f32) (x2 : Vec Ideal S128x128 .f32) (x3 : Vec Ideal S1x128 .f32)
    (x4 : Vec Ideal S128x128 .f32) (i : S1024x128.Idx) :
    k0_pay5 x0 x2 x3 x4 i = max (k0_pay4 x0 x2 x3 x4 i) 0 := by
  unfold k0_pay5
  simp only [maximumf_apply, broadcast_apply, Scalar.ofBits, Ideal.ofBits_def, Ideal.ofBits_zero_f32]

/-- The stored message block at (r, j): row r of the loaded state block through the two-layer perceptron. -/
theorem sPay_apply (x0 : Vec Ideal S1024x128 .f32) (x2 : Vec Ideal S128x128 .f32) (x3 : Vec Ideal S1x128 .f32)
    (x4 : Vec Ideal S128x128 .f32) (r : Fin 1024) (j : Fin 128) :
    sPay x0 x2 x3 x4 (ix2 r j) = mlpRow (fun q => x0 (ix2 r q)) x2 x3 x4 j := by
  unfold sPay k0_pay1
  simp only [subf_apply, broadcast_apply, select_apply, cmpf_apply, addf_apply, absf_apply, exp_apply, log1p_apply,
    Scalar.ofBits, Ideal.ofBits_def, Ideal.ofBits_zero_f32, Ideal.cmpf_def, pay5_apply, pay4_apply, lsig_spelt]
  rfl

/-- The zero splat. -/
theorem pay3_apply (i : S2048x128.Idx) : k0_pay3 (F := Ideal) i = 0 := by
  unfold k0_pay3
  simp only [broadcast_apply, Scalar.ofBits, Ideal.ofBits_def, Ideal.ofBits_zero_f32]

/-- The stored aggregate block at (n, d): what the block held plus row n of the mask block against column d of the
    message block. -/
theorem aggPay_apply (x0 : Vec Ideal S1024x128 .f32) (x1 : Vec Ideal S2048x1024 .f32) (x2 : Vec Ideal S128x128 .f32)
    (x3 : Vec Ideal S1x128 .f32) (x4 : Vec Ideal S128x128 .f32) (acc : Vec Ideal S2048x128 .f32) (n : Fin 2048) (d : Fin 128) :
    aggPay x0 x1 x2 x3 x4 acc (ix2 n d)
      = acc (ix2 n d) + ∑ e : Fin 1024, x1 (ix2 n e) * sPay x0 x2 x3 x4 (ix2 e d) := by
  unfold aggPay k0_pay2 sPay
  simp only [addf_apply, shapeCast_self, mmB_apply, truncf_apply]

end Payloads

/-! ## The blocks the windows hand the body, as entries of the arrays -/

section Blocks

variable (V : (c : Dev nD) → (b : Ref sig .tc) → Buf (Elt Ideal) ((c : Thread nD τ).loc b))

/-- The five input blocks at a point and the five arrays they are cut from, at their literal types. -/
abbrev xblk (c : Dev nD) (t : Fin cfg0.N) : Vec Ideal S1024x128 .f32 := iblk0 V c 0 t
abbrev mblk (c : Dev nD) (t : Fin cfg0.N) : Vec Ideal S2048x1024 .f32 := iblk0 V c 1 t
abbrev w1blk (c : Dev nD) (t : Fin cfg0.N) : Vec Ideal S128x128 .f32 := iblk0 V c 2 t
abbrev bblk (c : Dev nD) (t : Fin cfg0.N) : Vec Ideal S1x128 .f32 := iblk0 V c 3 t
abbrev w2blk (c : Dev nD) (t : Fin cfg0.N) : Vec Ideal S128x128 .f32 := iblk0 V c 4 t
abbrev Xarr (c : Dev nD) : Vec Ideal S32768x128 .f32 := V c main_arg0
abbrev Marr (c : Dev nD) : Vec Ideal S2048x32768 .f32 := V c main_arg2
abbrev W1arr (c : Dev nD) : Vec Ideal S128x128 .f32 := V c main_v0
abbrev Barr (c : Dev nD) : Vec Ideal S1x128 .f32 := V c main_v4
abbrev W2arr (c : Dev nD) : Vec Ideal S128x128 .f32 := V c main_v1

/-- The message array of the specification over the region's arrays. -/
abbrev Sarr (c : Dev nD) : Arr 32768 128 := sOf (Xarr V c) (W1arr V c) (Barr V c) (W2arr V c)

/-- Where each window's block sits at point t: the state and message windows walk down the rows, the mask window
    along the columns, the weights, the bias and the aggregate stay at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0 :=
  (by decide +kernel : ∀ t : Fin grid0.N, _)

/-- Row r of the state block at point t is row 1024·t + r of the state array. -/
theorem xblk_apply (c : Dev nD) (t : Fin cfg0.N) (r : Fin 1024) (q : Fin 128) (e : Fin 32768)
    (he : e.val = t.val * 1024 + r.val) : xblk V c t (ix2 r q) = Xarr V c (ix2 e q) := by
  obtain ⟨e0, e1, -⟩ := idx_facts t
  show V c main_arg0 (((cfg0.win 0).blk t).view.emb (ix2 r q)) = V c main_arg0 (ix2 e q)
  refine congrArg _ (funext fun a => Fin.ext ?_)
  match a with
  | ⟨0, _⟩ => show win0_0.index t (0 : Fin 2) * 1024 + 1 * r.val = e.val; omega
  | ⟨1, _⟩ => show win0_0.index t (1 : Fin 2) * 128 + 1 * q.val = q.val; omega

/-- Column k of the mask block at point t is column 1024·t + k of the mask array. -/
theorem mblk_apply (c : Dev nD) (t : Fin cfg0.N) (p : Fin 2048) (k : Fin 1024) (e : Fin 32768)
    (he : e.val = t.val * 1024 + k.val) : mblk V c t (ix2 p k) = Marr V c (ix2 p e) := by
  obtain ⟨-, -, e2, e3, -⟩ := idx_facts t
  show V c main_arg2 (((cfg0.win 1).blk t).view.emb (ix2 p k)) = V c main_arg2 (ix2 p e)
  refine congrArg _ (funext fun a => Fin.ext ?_)
  match a with
  | ⟨0, _⟩ => show win0_1.index t (0 : Fin 2) * 2048 + 1 * p.val = p.val; omega
  | ⟨1, _⟩ => show win0_1.index t (1 : Fin 2) * 1024 + 1 * k.val = e.val; omega

/-- The weight and bias windows hold their whole arrays at every point. -/
theorem w1blk_eq (c : Dev nD) (t : Fin cfg0.N) : w1blk V c t = W1arr V c := by
  obtain ⟨-, -, -, -, e4, e5, -⟩ := idx_facts t
  funext y
  show V c main_v0 (((cfg0.win 2).blk t).view.emb y) = V c main_v0 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem bblk_eq (c : Dev nD) (t : Fin cfg0.N) : bblk V c t = Barr V c := by
  obtain ⟨-, -, -, -, -, -, e6, e7, -⟩ := idx_facts t
  funext y
  show V c main_v4 (((cfg0.win 3).blk t).view.emb y) = V c main_v4 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

theorem w2blk_eq (c : Dev nD) (t : Fin cfg0.N) : w2blk V c t = W2arr V c := by
  obtain ⟨-, -, -, -, -, -, -, -, e8, e9, -⟩ := idx_facts t
  funext y
  show V c main_v1 (((cfg0.win 4).blk t).view.emb y) = V c main_v1 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The message block stored at point t, at (r, j): entry (1024·t + r, j) of the specification's message array. -/
theorem sblock_apply (c : Dev nD) (t : Fin cfg0.N) (r : Fin 1024) (j : Fin 128) (e : Fin 32768)
    (he : e.val = t.val * 1024 + r.val) :
    sPay (xblk V c t) (w1blk V c t) (bblk V c t) (w2blk V c t) (ix2 r j) = Sarr V c (ix2 e j) := by
  rw [sPay_apply, w1blk_eq, bblk_eq, w2blk_eq]
  show _ = mlpRow (fun q => Xarr V c (ix2 e q)) (W1arr V c) (Barr V c) (W2arr V c) j
  refine congrArg (fun x => mlpRow x (W1arr V c) (Barr V c) (W2arr V c) j) (funext fun q => ?_)
  exact xblk_apply V c t r q e he

end Blocks

/-! ## What the two output blocks hold after each point -/

section Invariants

variable (V : (c : Dev nD) → (b : Ref sig .tc) → Buf (Elt Ideal) ((c : Thread nD τ).loc b))

/-- The message block after point t is that point's 1024 rows through the perceptron: nothing is carried. -/
theorem out5_eq (c : Dev nD) (t : Fin cfg0.N) :
    (outsAt0 V c t.val t.isLt).1 = sPay (xblk V c t) (w1blk V c t) (bblk V c t) (w2blk V c t) := by
  by_cases h0 : t.val % 32 = 0
  · rw [outsAt0_A V c t h0]; dsimp only
    exact pc5_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t) (iblk0 V c 4 t)
  · rw [outsAt0_B V c t h0]; dsimp only
    exact pc5_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2

/-- One term of the aggregate at (p, d): the mask's entry (p, e) times the message array's entry (e, d). -/
def aggTerm (c : Dev nD) (p : Fin 2048) (d : Fin 128) : Fin (32 * 1024) → EReal :=
  fun e => Marr V c (ix2 p e) * Sarr V c (ix2 e d)

/-- The terms the body adds at point t are the aggregate's terms of block t. -/
theorem term_eq (c : Dev nD) (t : Fin cfg0.N) (ht : t.val < 32) (p : Fin 2048) (d : Fin 128) (k : Fin 1024) :
    mblk V c t (ix2 p k) * sPay (xblk V c t) (w1blk V c t) (bblk V c t) (w2blk V c t) (ix2 k d)
      = aggTerm V c p d (blockIdx ⟨t.val, ht⟩ k) := by
  unfold aggTerm
  rw [mblk_apply V c t p k (blockIdx ⟨t.val, ht⟩ k) rfl, sblock_apply V c t k d (blockIdx ⟨t.val, ht⟩ k) rfl]

/-- THE RUNNING SUM. After point n the aggregate block holds, at (p, d), the terms of blocks 0 … n: the first point
    adds its block to the zero splat, every later point to what the point before left. -/
theorem out6_eq (c : Dev nD) (p : Fin 2048) (d : Fin 128) : ∀ (n : ℕ) (hn : n < cfg0.N),
    (outsAt0 V c n hn).2 (ix2 p d)
      = ∑ t ∈ Finset.range (n + 1), if h : t < 32 then ∑ k : Fin 1024, aggTerm V c p d (blockIdx ⟨t, h⟩ k) else 0
  | 0, hn => by
    have h32 : (0 : ℕ) < 32 := by decide
    rw [outsAt0_A V c ⟨0, hn⟩ rfl]; dsimp only
    refine (congrFun (pc6_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩)) (ix2 p d)).trans ?_
    rw [aggPay_apply, pay3_apply, zero_add, Finset.sum_range_one, dif_pos h32]
    exact Finset.sum_congr rfl fun k _ => term_eq V c ⟨0, hn⟩ h32 p d k
  | n + 1, hn => by
    have hN : cfg0.N = 32 := N_0
    have h32 : n + 1 < 32 := lt_of_lt_of_eq hn hN
    have hB : ¬(⟨n + 1, hn⟩ : Fin cfg0.N).val % 32 = 0 := by dsimp only; omega
    rw [outsAt0_B V c ⟨n + 1, hn⟩ hB]; dsimp only
    refine (congrFun (pc6_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => hB ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 V c n (Nat.lt_of_succ_lt hn)).2) (ix2 p d)).trans ?_
    rw [aggPay_apply, out6_eq c p d n (Nat.lt_of_succ_lt hn), Finset.sum_range_succ _ (n + 1), dif_pos h32]
    exact congrArg _ (Finset.sum_congr rfl fun k _ => term_eq V c ⟨n + 1, hn⟩ h32 p d k)

end Invariants

/-! ## From the blocks to the two arrays -/

section Final

variable (V : (c : Dev nD) → (b : Ref sig .tc) → Buf (Elt Ideal) ((c : Thread nD τ).loc b))

/-- An index of the message array is in point t's block iff each coordinate is in the block's range on its axis. -/
theorem mem_blk5 (t : Fin cfg0.N) (i : S32768x128.Idx) :
    i ∈ ((cfg0.win 5).blk t).view.set ↔ ∀ a : Fin 2, win0_5.index t a * S1024x128.size a ≤ (i a).val
      ∧ (i a).val < win0_5.index t a * S1024x128.size a + S1024x128.size a := by
  show i ∈ ((View.whole main_v6_0).slice (win0_5.rect t)).set ↔ _
  rw [View.set_slice_whole, Rect.mem_set_unit]
  exact Iff.rfl

/-- The same for the aggregate array and its one block. -/
theorem mem_blk6 (t : Fin cfg0.N) (i : S2048x128.Idx) :
    i ∈ ((cfg0.win 6).blk t).view.set ↔ ∀ a : Fin 2, win0_6.index t a * S2048x128.size a ≤ (i a).val
      ∧ (i a).val < win0_6.index t a * S2048x128.size a + S2048x128.size a := by
  show i ∈ ((View.whole main_v6_1).slice (win0_6.rect t)).set ↔ _
  rw [View.set_slice_whole, Rect.mem_set_unit]
  exact Iff.rfl

/-- What point t writes back to the message array is block t of the specification's message array. -/
theorem flushed5_eq (c : Dev nD) (t : Fin cfg0.N) :
    (dat0 V c).flushed 5 t = ((cfg0.win 5).blk t).view.read (Elt Ideal) (Sarr V c) := by
  obtain ⟨-, -, -, -, -, -, -, -, -, -, e10, e11, -⟩ := idx_facts t
  have hN : t.val < 32 := lt_of_lt_of_eq t.isLt N_0
  show (cfg0.win 5).cut (grid0.coords t) ((dat0 V c).after 5 t) = _
  rw [after0_5, out5_eq]
  funext y
  obtain ⟨r, j, rfl⟩ : ∃ (r : Fin 1024) (j : Fin 128), y = ix2 r j := ⟨y 0, y 1, eq_ix2 y⟩
  have hr : r.val < 1024 := r.isLt
  show sPay (xblk V c t) (w1blk V c t) (bblk V c t) (w2blk V c t) (ix2 r j)
    = Sarr V c (((cfg0.win 5).blk t).view.emb (ix2 r j))
  rw [sblock_apply V c t r j ⟨t.val * 1024 + r.val, by omega⟩ rfl]
  refine congrArg _ (funext fun a => Fin.ext ?_)
  match a with
  | ⟨0, _⟩ => show t.val * 1024 + r.val = win0_5.index t (0 : Fin 2) * 1024 + 1 * r.val; omega
  | ⟨1, _⟩ => show j.val = win0_5.index t (1 : Fin 2) * 128 + 1 * j.val; omega

/-- The specification's aggregate at (p, d), its index written by coordinates. -/
theorem aggOf_apply (M : Arr 2048 32768) (S : Arr 32768 128) (p : Fin 2048) (d : Fin 128) :
    aggOf M S (ix2 p d) = ∑ e : Fin 32768, M (ix2 p e) * S (ix2 e d) := rfl

/-- The last point of the grid, the one that writes the aggregate block back. -/
abbrev tLast : Fin cfg0.N := ⟨31, by rw [show cfg0.N = 32 from N_0]; decide⟩

/-- The one write-back of the aggregate block, after the last point, writes the whole sum: the 32 blocks of 1024
    terms are the 32768 terms of the specification's aggregate. -/
theorem flushed6_eq (c : Dev nD) (t : Fin cfg0.N) (hf : (cfg0.win 6).flush t = true) :
    (dat0 V c).flushed 6 t = ((cfg0.win 6).blk t).view.read (Elt Ideal) (aggOf (Marr V c) (Sarr V c)) := by
  have hN : t.val < 32 := lt_of_lt_of_eq t.isLt N_0
  have h31 : t.val = 31 := by have := (flush0_6 t).mp hf; omega
  obtain ⟨-, -, -, -, -, -, -, -, -, -, -, -, e12, e13⟩ := idx_facts t
  show (cfg0.win 6).cut (grid0.coords t) ((dat0 V c).after 6 t) = _
  rw [after0_6]
  generalize hG : aggOf (Marr V c) (Sarr V c) = G
  funext y
  obtain ⟨p, d, rfl⟩ : ∃ (p : Fin 2048) (d : Fin 128), y = ix2 p d := ⟨y 0, y 1, eq_ix2 y⟩
  show (outsAt0 V c t.val t.isLt).2 (ix2 p d) = G (((cfg0.win 6).blk t).view.emb (ix2 p d))
  have hemb : ((cfg0.win 6).blk t).view.emb (ix2 p d) = ix2 p d := funext fun a => Fin.ext (by
    match a with
    | ⟨0, _⟩ => show win0_6.index t (0 : Fin 2) * 2048 + 1 * p.val = p.val; omega
    | ⟨1, _⟩ => show win0_6.index t (1 : Fin 2) * 128 + 1 * d.val = d.val; omega)
  rw [out6_eq V c p d t.val t.isLt, hemb, h31, ← hG, aggOf_apply]
  exact (sum_blocks_range 32 1024 (aggTerm V c p d)).symm

theorem s_final (c : Dev nD) :
    (dat0 (F := Ideal) V c).arrAt 5 cfg0.N
      = sOf (V c main_arg0) (V c main_v0) (V c main_v4) (V c main_v1) :=
  (dat0 V c).arrAt_eq_of_cover 5 (Sarr V c) (fun t _ => flushed5_eq V c t) fun i => by
    have hi0 : (i 0).val < 32768 := (i 0).isLt
    have hi1 : (i 1).val < 128 := (i 1).isLt
    have hN : cfg0.N = 32 := N_0
    have ht : (i 0).val / 1024 < cfg0.N := by rw [hN]; omega
    obtain ⟨-, -, -, -, -, -, -, -, -, -, e10, e11, -⟩ := idx_facts ⟨(i 0).val / 1024, ht⟩
    refine ⟨⟨(i 0).val / 1024, ht⟩, flush0_5 _, ?_⟩
    rw [mem_blk5]
    intro a
    match a with
    | ⟨0, _⟩ =>
      show win0_5.index ⟨(i 0).val / 1024, ht⟩ (0 : Fin 2) * 1024 ≤ (i 0).val
        ∧ (i 0).val < win0_5.index ⟨(i 0).val / 1024, ht⟩ (0 : Fin 2) * 1024 + 1024
      rw [e10]; dsimp only; omega
    | ⟨1, _⟩ =>
      show win0_5.index ⟨(i 0).val / 1024, ht⟩ (1 : Fin 2) * 128 ≤ (i 1).val
        ∧ (i 1).val < win0_5.index ⟨(i 0).val / 1024, ht⟩ (1 : Fin 2) * 128 + 128
      rw [e11]; omega

theorem agg_final (c : Dev nD) :
    (dat0 (F := Ideal) V c).arrAt 6 cfg0.N
      = aggOf (V c main_arg2) (sOf (V c main_arg0) (V c main_v0) (V c main_v4) (V c main_v1)) :=
  (dat0 V c).arrAt_eq_of_cover 6 (aggOf (Marr V c) (Sarr V c)) (flushed6_eq V c) fun i => by
    have hi0 : (i 0).val < 2048 := (i 0).isLt
    have hi1 : (i 1).val < 128 := (i 1).isLt
    obtain ⟨-, -, -, -, -, -, -, -, -, -, -, -, e12, e13⟩ := idx_facts tLast
    refine ⟨tLast, (flush0_6 tLast).mpr rfl, ?_⟩
    rw [mem_blk6]
    intro a
    match a with
    | ⟨0, _⟩ =>
      show win0_6.index tLast (0 : Fin 2) * 2048 ≤ (i 0).val ∧ (i 0).val < win0_6.index tLast (0 : Fin 2) * 2048 + 2048
      omega
    | ⟨1, _⟩ =>
      show win0_6.index tLast (1 : Fin 2) * 128 ≤ (i 1).val ∧ (i 1).val < win0_6.index tLast (1 : Fin 2) * 128 + 128
      omega

end Final

end Cert.KernelIdeal.StageOne

end
-- ==== Proof.StageTwo.lean ====
/-
  The second pipelined region: every block of 1024 edges through "scatter back, take the edge's own message off,
  lay the features beside it, second perceptron".

  At grid point t the body reads rows t·1024 … t·1024 + 1023 of the transposed incidence matrix, of the message array
  and of the feature array, and the whole of the aggregate, the two weight matrices and the bias. With
  cat(r, q) = (∑ₙ MTblock[r, n] · agg[n, q]) − sblock[r, q] for q < 128 and cat(r, q) = Feblock[r, q − 128] otherwise,
  it stores, at (r, j),
      lsig (∑ₖ lsig ((∑_q cat(r, q) · A[q, k]) + bias[0, k]) · B[k, j]),
  where lsig is the log-sigmoid −softplus(−x); the body spells negation as 0 − x and guards softplus with a
  comparison "x ≠ x", false on the extended reals, so the select keeps the softplus branch.
  The output blocks are the 32 row blocks of the result array, so they cover it, and row e is written by point e / 1024.
  Only re-indexing of finite sums is used; no finiteness of any entry.
-/
import proofs.«152187_j6468220748479_1_alg».proof.Proof.Gen.KernelIdeal.Frame
import proofs.«152187_j6468220748479_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.StageTwo

open Idealize.ShloMosaic Idealize.ShloMosaic.TcCoe Idealize.SL.Sem Idealize.ShloMosaic.ValueIdx
open Cert.KernelIdeal Cert.KernelIdeal.Gen Cert.EdgeMlp

/-! ## Scalars: the log-sigmoid as the body spells it -/

/-- The all-zero offset of a whole-buffer access. -/
theorem hz : (![0, 0] : Fin 2 → Nat) = fun _ => 0 := funext fun a => by fin_cases a <;> rfl

/-- The exponential, log(1 + ·) and absolute value of a vector, read at an index. -/
theorem exp_apply {s : Shape} {φ : FTy} (a : FVec Ideal s φ) (i : s.Idx) : exp a i = Ideal.exp (a i) := rfl
theorem log1p_apply {s : Shape} {φ : FTy} (a : FVec Ideal s φ) (i : s.Idx) : log1p a i = Ideal.log1p (a i) := rfl
theorem absf_apply {s : Shape} {φ : FTy} (a : FVec Ideal s φ) (i : s.Idx) : absf a i = max (a i) (-(a i)) := rfl

/-- "a ≠ a" is false on the extended reals. -/
theorem cmp_one_self (a : EReal) : Ideal.cmp .one a a = 0#1 := by
  simp [Ideal.cmp]

/-- The body's scalar chain on z — 0 − (the select between (0 − z) + 0 and max(0 − z, 0) + log1p(exp(0 − |0 − z − 0|)),
    on the test "(0 − z − 0) ≠ itself") — is the log-sigmoid of z: the test is false, 0 − x = −x and x − 0 = x. -/
theorem lsig_spelt (z : EReal) :
    (Ideal.ofBits .f32 0x00000000#32 : EReal) -
      Scalar.select (FloatOps.cmpf (F := Ideal) (φ := .f32) .one (Ideal.ofBits .f32 0x00000000#32 - z - Ideal.ofBits .f32 0x00000000#32)
          (Ideal.ofBits .f32 0x00000000#32 - z - Ideal.ofBits .f32 0x00000000#32))
        (Ideal.ofBits .f32 0x00000000#32 - z + Ideal.ofBits .f32 0x00000000#32)
        (max (Ideal.ofBits .f32 0x00000000#32 - z) (Ideal.ofBits .f32 0x00000000#32) +
          Ideal.log1p (Ideal.exp (Ideal.ofBits .f32 0x00000000#32 -
            max (Ideal.ofBits .f32 0x00000000#32 - z - Ideal.ofBits .f32 0x00000000#32)
              (-(Ideal.ofBits .f32 0x00000000#32 - z - Ideal.ofBits .f32 0x00000000#32)))))
      = lsig z := by
  rw [Ideal.cmpf_def, cmp_one_self, select_zero]
  simp only [Ideal.ofBits_zero_f32, zero_sub, sub_zero]
  rfl

/-! ## The three block products at an index: a plain sum over the one contracted axis -/

/-- [1024,128] · [128,128]: the hidden layer times the second weights. -/
abbrev D1 := dot_S1024x128_S128x128_S1024x128_1_0_0_1_n_n
/-- [1024,2048] · [2048,128]: the transposed-incidence block times the aggregate. -/
abbrev D2 := dot_S1024x2048_S2048x128_S1024x128_1_0_0_1_n_n
/-- [1024,160] · [160,128]: the concatenated rows times the first weights. -/
abbrev D3 := dot_S1024x160_S160x128_S1024x128_1_0_0_1_n_n

/-- The left operand's index at output (r, c) and contraction position k is (r, k) … -/
theorem D1_lhs (r : Fin 1024) (c : Fin 128) (κ : D1.contr.Idx) (k : Fin 128) (hk : (κ ⟨0, by decide⟩).val = k.val) :
    D1.lhsIdx (ix2 r c) κ = ix2 r k := by
  funext a; apply Fin.ext
  match a with
  | ⟨0, _⟩ => rfl
  | ⟨1, _⟩ => exact (D1.lhsIdx_val_of_single (cl := 1) rfl (ix2 r c) κ).trans hk
/-- … and the right operand's is (k, c). -/
theorem D1_rhs (r : Fin 1024) (c : Fin 128) (κ : D1.contr.Idx) (k : Fin 128) (hk : (κ ⟨0, by decide⟩).val = k.val) :
    D1.rhsIdx (ix2 r c) κ = ix2 k c := by
  funext a; apply Fin.ext
  match a with
  | ⟨0, _⟩ => exact (D1.rhsIdx_val_of_single (cr := 0) rfl (ix2 r c) κ).trans hk
  | ⟨1, _⟩ => rfl

theorem mm1 (a : FVec Ideal S1024x128 .bf16) (b : FVec Ideal S128x128 .bf16) (r : Fin 1024) (j : Fin 128) :
    matmul D1 none a b (constant S1024x128 .f32 0x00000000#32) (ix2 r j) = ∑ k : Fin 128, a (ix2 r k) * b (ix2 k j) := by
  refine (Ideal.matmul_constant_zero_apply D1 none a b (ix2 r j)).trans ?_
  refine (Equiv.sum_comp (contrEquiv1 D1 128 rfl rfl).symm _).symm.trans ?_
  refine Finset.sum_congr rfl fun k _ => ?_
  rw [D1_lhs r j _ k (contrEquiv1_symm_val D1 128 rfl rfl k), D1_rhs r j _ k (contrEquiv1_symm_val D1 128 rfl rfl k)]

theorem D2_lhs (r : Fin 1024) (c : Fin 128) (κ : D2.contr.Idx) (k : Fin 2048) (hk : (κ ⟨0, by decide⟩).val = k.val) :
    D2.lhsIdx (ix2 r c) κ = ix2 r k := by
  funext a; apply Fin.ext
  match a with
  | ⟨0, _⟩ => rfl
  | ⟨1, _⟩ => exact (D2.lhsIdx_val_of_single (cl := 1) rfl (ix2 r c) κ).trans hk
theorem D2_rhs (r : Fin 1024) (c : Fin 128) (κ : D2.contr.Idx) (k : Fin 2048) (hk : (κ ⟨0, by decide⟩).val = k.val) :
    D2.rhsIdx (ix2 r c) κ = ix2 k c := by
  funext a; apply Fin.ext
  match a with
  | ⟨0, _⟩ => exact (D2.rhsIdx_val_of_single (cr := 0) rfl (ix2 r c) κ).trans hk
  | ⟨1, _⟩ => rfl

theorem mm2 (a : FVec Ideal S1024x2048 .bf16) (b : FVec Ideal S2048x128 .bf16) (r : Fin 1024) (j : Fin 128) :
    matmul D2 none a b (constant S1024x128 .f32 0x00000000#32) (ix2 r j) = ∑ k : Fin 2048, a (ix2 r k) * b (ix2 k j) := by
  refine (Ideal.matmul_constant_zero_apply D2 none a b (ix2 r j)).trans ?_
  refine (Equiv.sum_comp (contrEquiv1 D2 2048 rfl rfl).symm _).symm.trans ?_
  refine Finset.sum_congr rfl fun k _ => ?_
  rw [D2_lhs r j _ k (contrEquiv1_symm_val D2 2048 rfl rfl k), D2_rhs r j _ k (contrEquiv1_symm_val D2 2048 rfl rfl k)]

theorem D3_lhs (r : Fin 1024) (c : Fin 128) (κ : D3.contr.Idx) (k : Fin 160) (hk : (κ ⟨0, by decide⟩).val = k.val) :
    D3.lhsIdx (ix2 r c) κ = ix2 r k := by
  funext a; apply Fin.ext
  match a with
  | ⟨0, _⟩ => rfl
  | ⟨1, _⟩ => exact (D3.lhsIdx_val_of_single (cl := 1) rfl (ix2 r c) κ).trans hk
theorem D3_rhs (r : Fin 1024) (c : Fin 128) (κ : D3.contr.Idx) (k : Fin 160) (hk : (κ ⟨0, by decide⟩).val = k.val) :
    D3.rhsIdx (ix2 r c) κ = ix2 k c := by
  funext a; apply Fin.ext
  match a with
  | ⟨0, _⟩ => exact (D3.rhsIdx_val_of_single (cr := 0) rfl (ix2 r c) κ).trans hk
  | ⟨1, _⟩ => rfl

theorem mm3 (a : FVec Ideal S1024x160 .bf16) (b : FVec Ideal S160x128 .bf16) (r : Fin 1024) (j : Fin 128) :
    matmul D3 none a b (constant S1024x128 .f32 0x00000000#32) (ix2 r j) = ∑ k : Fin 160, a (ix2 r k) * b (ix2 k j) := by
  refine (Ideal.matmul_constant_zero_apply D3 none a b (ix2 r j)).trans ?_
  refine (Equiv.sum_comp (contrEquiv1 D3 160 rfl rfl).symm _).symm.trans ?_
  refine Finset.sum_congr rfl fun k _ => ?_
  rw [D3_lhs r j _ k (contrEquiv1_symm_val D3 160 rfl rfl k), D3_rhs r j _ k (contrEquiv1_symm_val D3 160 rfl rfl k)]

/-! ## Laying two pieces side by side along the columns -/

/-- Column q of a [1024,128] piece beside a [1024,32] piece: the first piece for q < 128, the second at q − 128. -/
theorem cat_apply (a : FVec Ideal S1024x128 .f32) (b : FVec Ideal S1024x32 .f32) (r : Fin 1024) (q : Fin 160) :
    concatenate S1024x160 1 [⟨S1024x128, a⟩, ⟨S1024x32, b⟩] concatenates_S1024x128_S1024x32_S1024x160_d1 (ix2 r q)
      = if h : q.val < 128 then a (ix2 r ⟨q.val, h⟩) else b (ix2 r ⟨q.val - 128, by have := q.isLt; omega⟩) := by
  split
  · next h =>
    refine concatenate_pair_apply_left (1 : Fin 2) a b _ (ix2 r q) rfl (ix2 r ⟨q.val, h⟩) fun b' => ?_
    match b' with
    | ⟨0, _⟩ => rfl
    | ⟨1, _⟩ => rfl
  · next h =>
    refine concatenate_pair_apply_right (1 : Fin 2) a b _ (ix2 r q) rfl rfl (ix2 r ⟨q.val - 128, by have := q.isLt; omega⟩) (fun b' hb => ?_) ?_
    · match b' with
      | ⟨0, _⟩ => rfl
      | ⟨1, _⟩ => exact absurd rfl hb
    · show (q.val - 128) + 128 = q.val
      omega

/-! ## The two payloads at an index -/

/-- The concatenated row of block row r, from the four blocks the body reads for it. -/
def catBlk (v0 : Vec Ideal S1024x2048 .f32) (v2 : Vec Ideal S2048x128 .f32) (v6 : Vec Ideal S1024x128 .f32)
    (v9 : Vec Ideal S1024x32 .f32) (r : Fin 1024) (q : Fin 160) : EReal :=
  if h : q.val < 128 then (∑ n : Fin 2048, v0 (ix2 r n) * v2 (ix2 n ⟨q.val, h⟩)) - v6 (ix2 r ⟨q.val, h⟩)
  else v9 (ix2 r ⟨q.val - 128, by have := q.isLt; omega⟩)

/-- The hidden layer at (r, k): the log-sigmoid of the concatenated row against column k of the first weights, plus the bias. -/
theorem pay2_apply (v0 : Vec Ideal S1024x2048 .f32) (v2 : Vec Ideal S2048x128 .f32) (v6 : Vec Ideal S1024x128 .f32)
    (v9 : Vec Ideal S1024x32 .f32) (v11 : Vec Ideal S160x128 .f32) (v16 : Vec Ideal S1x128 .f32) (r : Fin 1024) (k : Fin 128) :
    k1_pay2 v0 v2 v6 v9 v11 v16 (ix2 r k)
      = lsig ((∑ q : Fin 160, catBlk v0 v2 v6 v9 r q * v11 (ix2 q k)) + v16 (ix2 (0 : Fin 1) k)) := by
  unfold k1_pay2
  simp only [subf_apply, select_apply, cmpf_apply, broadcast_apply, addf_apply, maximumf_apply, exp_apply, log1p_apply, absf_apply]
  rw [mm3, broadcastTo_apply _ _ (ix2 r k) (ix2 (0 : Fin 1) k) (fun a => by match a with | ⟨0, _⟩ => rfl | ⟨1, _⟩ => rfl)]
  simp only [truncf_apply, shapeCast_self, cat_apply, subf_apply, mm2]
  exact lsig_spelt _

/-- The stored value at (r, j): the log-sigmoid of the hidden row against column j of the second weights. -/
theorem pay1_apply (v37 : FVec Ideal S1024x128 .f32) (v38 : Vec Ideal S128x128 .f32) (r : Fin 1024) (j : Fin 128) :
    k1_pay1 v37 v38 (ix2 r j) = lsig (∑ k : Fin 128, v37 (ix2 r k) * v38 (ix2 k j)) := by
  unfold k1_pay1
  simp only [subf_apply, select_apply, cmpf_apply, broadcast_apply, addf_apply, maximumf_apply, exp_apply, log1p_apply, absf_apply]
  rw [mm1]
  simp only [truncf_apply, shapeCast_self]
  exact lsig_spelt _

/-- What the body leaves in the output buffer, at (r, j), from the seven input blocks: the perceptron row of catBlk. -/
theorem out_apply (x0 : Vec Ideal S1024x2048 .f32) (x1 : Vec Ideal S2048x128 .f32) (x2 : Vec Ideal S1024x128 .f32)
    (x3 : Vec Ideal S1024x32 .f32) (x4 : Vec Ideal S160x128 .f32) (x5 : Vec Ideal S1x128 .f32) (x6 : Vec Ideal S128x128 .f32)
    (r : Fin 1024) (j : Fin 128) :
    out1_7 x0 x1 x2 x3 x4 x5 x6 (ix2 r j) = mlpRow (catBlk x0 x1 x2 x3 r) x4 x5 x6 j := by
  unfold out1_7
  rw [View.canon_unit_zero hz]
  simp only [View.ld_unit_zero (S := S1024x2048) hz, View.ld_unit_zero (S := S2048x128) hz, View.ld_unit_zero (S := S1024x128) hz,
    View.ld_unit_zero (S := S1024x32) hz, View.ld_unit_zero (S := S160x128) hz, View.ld_unit_zero (S := S1x128) hz,
    View.ld_unit_zero (S := S128x128) hz]
  rw [pay1_apply]
  simp only [pay2_apply]
  rfl

/-! ## From the blocks to the array -/

variable (V : (c : Dev nD) → (b : Ref sig .tc) → Buf (Elt Ideal) ((c : Thread nD τ).loc b))

/-- The printed index maps over the 32 grid points: the four row-blocked windows (transposed incidence, messages,
    features, output) are at block row t, column block 0; the four whole-array windows at block (0, 0). -/
theorem idx_facts : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row r of point t's block of the transposed incidence matrix is row t·1024 + r of the array. -/
theorem blk0_apply (c : Dev nD) (t : Fin cfg1.N) (r : Fin 1024) (n : Fin 2048) (e : Fin 32768) (he : e.val = t.val * 1024 + r.val) :
    (iblk1 V c 0 t : Vec Ideal S1024x2048 .f32) (ix2 r n) = (V c main_arg3 : S32768x2048.Idx → EReal) (ix2 e n) := by
  obtain ⟨h00, h01, -⟩ := idx_facts t
  unfold iblk1
  rw [View.read_apply]
  show V c main_arg3 _ = V c main_arg3 _
  congr 1
  funext a; apply Fin.ext
  match a with
  | ⟨0, _⟩ => show win1_0.index t (0 : Fin 2) * 1024 + 1 * r.val = e.val; rw [h00, he]; omega
  | ⟨1, _⟩ => show win1_0.index t (1 : Fin 2) * 2048 + 1 * n.val = n.val; rw [h01]; omega

/-- The same for the message array … -/
theorem blk2_apply (c : Dev nD) (t : Fin cfg1.N) (r : Fin 1024) (d : Fin 128) (e : Fin 32768) (he : e.val = t.val * 1024 + r.val) :
    (iblk1 V c 2 t : Vec Ideal S1024x128 .f32) (ix2 r d) = (V c main_v6_0 : S32768x128.Idx → EReal) (ix2 e d) := by
  obtain ⟨-, -, -, -, h20, h21, -⟩ := idx_facts t
  unfold iblk1
  rw [View.read_apply]
  show V c main_v6_0 _ = V c main_v6_0 _
  congr 1
  funext a; apply Fin.ext
  match a with
  | ⟨0, _⟩ => show win1_2.index t (0 : Fin 2) * 1024 + 1 * r.val = e.val; rw [h20, he]; omega
  | ⟨1, _⟩ => show win1_2.index t (1 : Fin 2) * 128 + 1 * d.val = d.val; rw [h21]; omega

/-- … and the feature array. -/
theorem blk3_apply (c : Dev nD) (t : Fin cfg1.N) (r : Fin 1024) (f : Fin 32) (e : Fin 32768) (he : e.val = t.val * 1024 + r.val) :
    (iblk1 V c 3 t : Vec Ideal S1024x32 .f32) (ix2 r f) = (V c main_arg1 : S32768x32.Idx → EReal) (ix2 e f) := by
  obtain ⟨-, -, -, -, -, -, h30, h31, -⟩ := idx_facts t
  unfold iblk1
  rw [View.read_apply]
  show V c main_arg1 _ = V c main_arg1 _
  congr 1
  funext a; apply Fin.ext
  match a with
  | ⟨0, _⟩ => show win1_3.index t (0 : Fin 2) * 1024 + 1 * r.val = e.val; rw [h30, he]; omega
  | ⟨1, _⟩ => show win1_3.index t (1 : Fin 2) * 32 + 1 * f.val = f.val; rw [h31]; omega

/-- The aggregate's one block is the whole array, at every point … -/
theorem blk1_eq (c : Dev nD) (t : Fin cfg1.N) : (iblk1 V c 1 t : Vec Ideal S2048x128 .f32) = V c main_v6_1 := by
  obtain ⟨-, -, h10, h11, -⟩ := idx_facts t
  funext y
  unfold iblk1
  rw [View.read_apply]
  show V c main_v6_1 _ = V c main_v6_1 y
  congr 1
  funext a; apply Fin.ext
  match a with
  | ⟨0, _⟩ => show win1_1.index t (0 : Fin 2) * 2048 + 1 * (y 0).val = (y 0).val; rw [h10]; omega
  | ⟨1, _⟩ => show win1_1.index t (1 : Fin 2) * 128 + 1 * (y 1).val = (y 1).val; rw [h11]; omega

/-- … so is the first weight matrix's … -/
theorem blk4_eq (c : Dev nD) (t : Fin cfg1.N) : (iblk1 V c 4 t : Vec Ideal S160x128 .f32) = V c main_v2 := by
  obtain ⟨-, -, -, -, -, -, -, -, h40, h41, -⟩ := idx_facts t
  funext y
  unfold iblk1
  rw [View.read_apply]
  show V c main_v2 _ = V c main_v2 y
  congr 1
  funext a; apply Fin.ext
  match a with
  | ⟨0, _⟩ => show win1_4.index t (0 : Fin 2) * 160 + 1 * (y 0).val = (y 0).val; rw [h40]; omega
  | ⟨1, _⟩ => show win1_4.index t (1 : Fin 2) * 128 + 1 * (y 1).val = (y 1).val; rw [h41]; omega

/-- … the bias row's … -/
theorem blk5_eq (c : Dev nD) (t : Fin cfg1.N) : (iblk1 V c 5 t : Vec Ideal S1x128 .f32) = V c main_v5 := by
  obtain ⟨-, -, -, -, -, -, -, -, -, -, h50, h51, -⟩ := idx_facts t
  funext y
  unfold iblk1
  rw [View.read_apply]
  show V c main_v5 _ = V c main_v5 y
  congr 1
  funext a; apply Fin.ext
  match a with
  | ⟨0, _⟩ => show win1_5.index t (0 : Fin 2) * 1 + 1 * (y 0).val = (y 0).val; rw [h50]; omega
  | ⟨1, _⟩ => show win1_5.index t (1 : Fin 2) * 128 + 1 * (y 1).val = (y 1).val; rw [h51]; omega

/-- … and the second weight matrix's. -/
theorem blk6_eq (c : Dev nD) (t : Fin cfg1.N) : (iblk1 V c 6 t : Vec Ideal S128x128 .f32) = V c main_v3 := by
  obtain ⟨-, -, -, -, -, -, -, -, -, -, -, -, h60, h61, -⟩ := idx_facts t
  funext y
  unfold iblk1
  rw [View.read_apply]
  show V c main_v3 _ = V c main_v3 y
  congr 1
  funext a; apply Fin.ext
  match a with
  | ⟨0, _⟩ => show win1_6.index t (0 : Fin 2) * 128 + 1 * (y 0).val = (y 0).val; rw [h60]; omega
  | ⟨1, _⟩ => show win1_6.index t (1 : Fin 2) * 128 + 1 * (y 1).val = (y 1).val; rw [h61]; omega

/-- The concatenated row built from blocks whose row r is the arrays' row e is the arrays' concatenated row e. -/
theorem catBlk_eq (x0 : Vec Ideal S1024x2048 .f32) (x1 : Vec Ideal S2048x128 .f32) (x2 : Vec Ideal S1024x128 .f32)
    (x3 : Vec Ideal S1024x32 .f32) (MT : Arr 32768 2048) (Agg : Arr 2048 128) (S : Arr 32768 128) (Fe : Arr 32768 32)
    (r : Fin 1024) (e : Fin 32768)
    (h0 : ∀ n : Fin 2048, x0 (ix2 r n) = MT (ix2 e n)) (h1 : x1 = Agg) (h2 : ∀ d : Fin 128, x2 (ix2 r d) = S (ix2 e d))
    (h3 : ∀ f : Fin 32, x3 (ix2 r f) = Fe (ix2 e f)) :
    catBlk x0 x1 x2 x3 r = catRow MT Agg S Fe e := by
  subst h1
  funext q
  unfold catBlk catRow msgRow
  split
  · simp only [h0, h2]
  · exact h3 _

/-- WHAT POINT t WRITES BACK is block t of the output function of the arrays as the region finds them. -/
theorem flushed_eq (c : Dev nD) (t : Fin cfg1.N) :
    (dat1 (F := Ideal) V c).flushed 7 t = ((cfg1.win 7).blk t).view.read (Elt Ideal)
      (outOf (V c main_arg3) (V c main_v6_1) (V c main_v6_0) (V c main_arg1) (V c main_v2) (V c main_v5) (V c main_v3)) := by
  show (cfg1.win 7).cut (grid1.coords t) ((dat1 V c).after 7 t) = _
  rw [after1_7]
  funext y
  obtain ⟨r, j, rfl⟩ : ∃ (r : Fin 1024) (j : Fin 128), y = ix2 r j := ⟨y 0, y 1, eq_ix2 y⟩
  obtain ⟨-, -, -, -, -, -, -, -, -, -, -, -, -, -, h70, h71⟩ := idx_facts t
  have hlt : t.val * 1024 + r.val < 32768 := by
    have hN : grid1.N = 32 := N_1
    have ht : t.val < grid1.N := t.isLt
    have hr : r.val < 1024 := r.isLt
    omega
  -- the block's index (r, j) sits at row t·1024 + r, column j of the array
  have hemb : ((cfg1.win 7).blk t).view.emb (ix2 r j) = (ix2 (⟨t.val * 1024 + r.val, hlt⟩ : Fin 32768) j : S32768x128.Idx) := by
    funext a; apply Fin.ext
    match a with
    | ⟨0, _⟩ => show win1_7.index t (0 : Fin 2) * 1024 + 1 * r.val = t.val * 1024 + r.val; rw [h70]; omega
    | ⟨1, _⟩ => show win1_7.index t (1 : Fin 2) * 128 + 1 * j.val = j.val; rw [h71]; omega
  show out1_7 (iblk1 V c 0 t) (iblk1 V c 1 t) (iblk1 V c 2 t) (iblk1 V c 3 t) (iblk1 V c 4 t) (iblk1 V c 5 t) (iblk1 V c 6 t) (ix2 r j)
    = outOf (V c main_arg3) (V c main_v6_1) (V c main_v6_0) (V c main_arg1) (V c main_v2) (V c main_v5) (V c main_v3)
        (((cfg1.win 7).blk t).view.emb (ix2 r j))
  refine (out_apply (iblk1 V c 0 t) (iblk1 V c 1 t) (iblk1 V c 2 t) (iblk1 V c 3 t) (iblk1 V c 4 t) (iblk1 V c 5 t) (iblk1 V c 6 t) r j).trans ?_
  refine Eq.trans ?_ (congrArg (outOf (V c main_arg3) (V c main_v6_1) (V c main_v6_0) (V c main_arg1) (V c main_v2) (V c main_v5) (V c main_v3)) hemb.symm)
  show _ = mlpRow (catRow (V c main_arg3) (V c main_v6_1) (V c main_v6_0) (V c main_arg1) ⟨t.val * 1024 + r.val, hlt⟩) (V c main_v2) (V c main_v5) (V c main_v3) j
  rw [catBlk_eq (iblk1 V c 0 t) (iblk1 V c 1 t) (iblk1 V c 2 t) (iblk1 V c 3 t) (V c main_arg3) (V c main_v6_1) (V c main_v6_0) (V c main_arg1)
      r ⟨t.val * 1024 + r.val, hlt⟩ (fun n => blk0_apply V c t r n _ rfl) (blk1_eq V c t) (fun d => blk2_apply V c t r d _ rfl)
      (fun f => blk3_apply V c t r f _ rfl),
    blk4_eq V c t, blk5_eq V c t, blk6_eq V c t]

/-- An index of the result array is in point t's block iff each coordinate is in the block's range on its axis. -/
theorem mem_blk (t : Fin cfg1.N) (i : S32768x128.Idx) :
    i ∈ ((cfg1.win 7).blk t).view.set ↔ ∀ a : Fin 2, win1_7.index t a * S1024x128.size a ≤ (i a).val ∧ (i a).val < win1_7.index t a * S1024x128.size a + S1024x128.size a := by
  show i ∈ ((View.whole main_v7).slice (win1_7.rect t)).set ↔ _
  rw [View.set_slice_whole, Rect.mem_set_unit]
  exact Iff.rfl

/-- Row e of the result array lies in the block of point e / 1024, and every point writes back. -/
theorem covered (i : S32768x128.Idx) :
    ∃ t : Fin cfg1.N, (cfg1.win 7).flush t = true ∧ i ∈ ((cfg1.win 7).blk t).view.set := by
  have hi0 : (i 0).val < 32768 := (i 0).isLt
  have hi1 : (i 1).val < 128 := (i 1).isLt
  have hN : grid1.N = 32 := N_1
  have ht : (i 0).val / 1024 < grid1.N := by rw [hN]; omega
  obtain ⟨-, -, -, -, -, -, -, -, -, -, -, -, -, -, h70, h71⟩ := idx_facts ⟨(i 0).val / 1024, ht⟩
  refine ⟨⟨(i 0).val / 1024, ht⟩, flush1_7 _, ?_⟩
  rw [mem_blk]
  intro a
  match a with
  | ⟨0, _⟩ =>
    show win1_7.index ⟨(i 0).val / 1024, ht⟩ (0 : Fin 2) * 1024 ≤ (i 0).val ∧ (i 0).val < win1_7.index ⟨(i 0).val / 1024, ht⟩ (0 : Fin 2) * 1024 + 1024
    rw [h70]
    show (i 0).val / 1024 * 1024 ≤ (i 0).val ∧ (i 0).val < (i 0).val / 1024 * 1024 + 1024
    omega
  | ⟨1, _⟩ =>
    show win1_7.index ⟨(i 0).val / 1024, ht⟩ (1 : Fin 2) * 128 ≤ (i 1).val ∧ (i 1).val < win1_7.index ⟨(i 0).val / 1024, ht⟩ (1 : Fin 2) * 128 + 128
    rw [h71]
    omega

/-- THE RESULT ARRAY after the region: the output function of the arrays as the region finds them. -/
theorem out_final (c : Dev nD) :
    (dat1 (F := Ideal) V c).arrAt 7 cfg1.N
      = outOf (V c main_arg3) (V c main_v6_1) (V c main_v6_0) (V c main_arg1) (V c main_v2) (V c main_v5) (V c main_v3) :=
  (dat1 (F := Ideal) V c).arrAt_eq_of_cover 7 _ (fun t _ => flushed_eq V c t) covered

end Cert.KernelIdeal.StageTwo

end
-- ==== Proof.KernelValue.lean ====
/-
  The kernel program's result array as one function of the ten inputs.

  The program is three stretches: host transposes and reshapes of the weights and biases; the first kernel
  region (messages s and per-node aggregates agg = M · s, from the state, the incidence matrix and the first
  perceptron's transposed weights); the second region (the output from Mᵀ, agg, s, the features and the second
  perceptron's transposed weights). Each region's final arrays are known as functions of what the region finds on
  entry; what a region finds is what the stretch before it left. Chaining the three gives `Cert.EdgeMlp.out`.
-/
import proofs.«152187_j6468220748479_1_alg».proof.Proof.KernelRun
import proofs.«152187_j6468220748479_1_alg».proof.Proof.StageOne
import proofs.«152187_j6468220748479_1_alg».proof.Proof.StageTwo
import Idealize.ShloMosaic.Lib.Pipeline.Value
import Idealize.ShloMosaic.Lib.StableHlo.Run

noncomputable section

namespace Cert.KernelIdeal.Whole

open Idealize.ShloMosaic Idealize.ShloMosaic.TcCoe Idealize.SL.Sem Idealize.ShloMosaic.StableHlo Idealize.ShloMosaic.ValueIdx
open Cert.KernelIdeal Cert.KernelIdeal.Gen Cert.EdgeMlp

variable (m : (ℓ : Loc nD τ sig) → Buf (Elt Ideal) ℓ) (ρ : Dev nD → PrngReg)

/-! ## What the first region finds: the host stretch read at an index -/

/-- A [128,128] transpose at (i, j) is the operand at (j, i). -/
theorem transpose_sq (x : FVec Ideal S128x128 .f32) (h : S128x128.Transposes [1, 0] S128x128) :
    (transpose S128x128 [1, 0] x h : Arr 128 128) = tr x := by
  funext j
  exact transpose_apply [1, 0] x h j (ix2 (j 1) (j 0)) (fun b => match b with | ⟨0, _⟩ => rfl | ⟨1, _⟩ => rfl)

/-- A [128,160] → [160,128] transpose at (i, j) is the operand at (j, i). -/
theorem transpose_wide (x : FVec Ideal S128x160 .f32) (h : S128x160.Transposes [1, 0] S160x128) :
    (transpose S160x128 [1, 0] x h : Arr 160 128) = tr x := by
  funext j
  exact transpose_apply [1, 0] x h j (ix2 (j 1) (j 0)) (fun b => match b with | ⟨0, _⟩ => rfl | ⟨1, _⟩ => rfl)

/-- A [128] vector reshaped to [1,128] at (0, j) is the vector at j. -/
theorem reshape_row (x : FVec Ideal S128 .f32) (h : S128.ShapeCasts S1x128) :
    (shapeCast S1x128 x h : Arr 1 128) = row x := by
  funext j
  refine shapeCast_apply x h j (ix1 (j 1)) ?_
  rw [Shape.rowMajor_val_one, Shape.rowMajor_val_two]
  have h0 : (j 0).val < 1 := idx2_lt0 j
  show (j 1).val = (j 0).val * 128 + (j 1).val
  omega

theorem entry_v0 (c : Dev nD) : (V1 m ρ c main_v0 : Arr 128 128) = tr (m ((c : Thread nD τ).loc main_arg4)) := by
  show StableHlo.after hostOps0 (W0 m ρ c) (Proc.devRef .tc main_v0) = _
  after_results
  exact transpose_sq _ _

theorem entry_v1 (c : Dev nD) : (V1 m ρ c main_v1 : Arr 128 128) = tr (m ((c : Thread nD τ).loc main_arg6)) := by
  show StableHlo.after hostOps0 (W0 m ρ c) (Proc.devRef .tc main_v1) = _
  after_results
  exact transpose_sq _ _

theorem entry_v2 (c : Dev nD) : (V1 m ρ c main_v2 : Arr 160 128) = tr (m ((c : Thread nD τ).loc main_arg7)) := by
  show StableHlo.after hostOps0 (W0 m ρ c) (Proc.devRef .tc main_v2) = _
  after_results
  exact transpose_wide _ _

theorem entry_v3 (c : Dev nD) : (V1 m ρ c main_v3 : Arr 128 128) = tr (m ((c : Thread nD τ).loc main_arg9)) := by
  show StableHlo.after hostOps0 (W0 m ρ c) (Proc.devRef .tc main_v3) = _
  after_results
  exact transpose_sq _ _

theorem entry_v4 (c : Dev nD) : (V1 m ρ c main_v4 : Arr 1 128) = row (m ((c : Thread nD τ).loc main_arg5)) := by
  show StableHlo.after hostOps0 (W0 m ρ c) (Proc.devRef .tc main_v4) = _
  after_results
  exact reshape_row _ _

theorem entry_v5 (c : Dev nD) : (V1 m ρ c main_v5 : Arr 1 128) = row (m ((c : Thread nD τ).loc main_arg8)) := by
  show StableHlo.after hostOps0 (W0 m ρ c) (Proc.devRef .tc main_v5) = _
  after_results
  exact reshape_row _ _

theorem entry_arg0 (c : Dev nD) : V1 m ρ c main_arg0 = m ((c : Thread nD τ).loc main_arg0) := by
  show StableHlo.after hostOps0 (W0 m ρ c) (Proc.devRef .tc main_arg0) = _
  after_results
theorem entry_arg1 (c : Dev nD) : V1 m ρ c main_arg1 = m ((c : Thread nD τ).loc main_arg1) := by
  show StableHlo.after hostOps0 (W0 m ρ c) (Proc.devRef .tc main_arg1) = _
  after_results
theorem entry_arg2 (c : Dev nD) : V1 m ρ c main_arg2 = m ((c : Thread nD τ).loc main_arg2) := by
  show StableHlo.after hostOps0 (W0 m ρ c) (Proc.devRef .tc main_arg2) = _
  after_results
theorem entry_arg3 (c : Dev nD) : V1 m ρ c main_arg3 = m ((c : Thread nD τ).loc main_arg3) := by
  show StableHlo.after hostOps0 (W0 m ρ c) (Proc.devRef .tc main_arg3) = _
  after_results

/-! ## What the first region leaves -/

/-- The messages, from the launch contents. -/
theorem s_eq (c : Dev nD) :
    (V2 m ρ c main_v6_0 : Arr 32768 128)
      = sOf (m ((c : Thread nD τ).loc main_arg0)) (tr (m ((c : Thread nD τ).loc main_arg4)))
          (row (m ((c : Thread nD τ).loc main_arg5))) (tr (m ((c : Thread nD τ).loc main_arg6))) := by
  refine ((W2_arr m ρ c 5).trans (StageOne.s_final (V1 m ρ) c)).trans ?_
  rw [entry_arg0, entry_v0, entry_v4, entry_v1]

/-- The per-node aggregates, from the launch contents. -/
theorem agg_eq (c : Dev nD) :
    (V2 m ρ c main_v6_1 : Arr 2048 128)
      = aggOf (m ((c : Thread nD τ).loc main_arg2))
          (sOf (m ((c : Thread nD τ).loc main_arg0)) (tr (m ((c : Thread nD τ).loc main_arg4)))
            (row (m ((c : Thread nD τ).loc main_arg5))) (tr (m ((c : Thread nD τ).loc main_arg6)))) := by
  refine ((W2_arr m ρ c 6).trans (StageOne.agg_final (V1 m ρ) c)).trans ?_
  rw [entry_arg2, entry_arg0, entry_v0, entry_v4, entry_v1]

/-- Buffers the first region does not write keep their entry contents. -/
theorem kept_arg3 (c : Dev nD) : V2 m ρ c main_arg3 = m ((c : Thread nD τ).loc main_arg3) :=
  (W2_of_ne m ρ c main_arg3 (by decide)).trans (entry_arg3 m ρ c)
theorem kept_arg1 (c : Dev nD) : V2 m ρ c main_arg1 = m ((c : Thread nD τ).loc main_arg1) :=
  (W2_of_ne m ρ c main_arg1 (by decide)).trans (entry_arg1 m ρ c)
theorem kept_v2 (c : Dev nD) : (V2 m ρ c main_v2 : Arr 160 128) = tr (m ((c : Thread nD τ).loc main_arg7)) :=
  (W2_of_ne m ρ c main_v2 (by decide)).trans (entry_v2 m ρ c)
theorem kept_v5 (c : Dev nD) : (V2 m ρ c main_v5 : Arr 1 128) = row (m ((c : Thread nD τ).loc main_arg8)) :=
  (W2_of_ne m ρ c main_v5 (by decide)).trans (entry_v5 m ρ c)
theorem kept_v3 (c : Dev nD) : (V2 m ρ c main_v3 : Arr 128 128) = tr (m ((c : Thread nD τ).loc main_arg9)) :=
  (W2_of_ne m ρ c main_v3 (by decide)).trans (entry_v3 m ρ c)

/-! ## The result -/

/-- The result array after the second region is the whole computation of the launch contents. -/
theorem result_eq (c : Dev nD) :
    W3 m ρ c (Proc.devRef .tc main_v7)
      = out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9)) := by
  refine ((W3_arr m ρ c 7).trans (StageTwo.out_final (V2 m ρ) c)).trans ?_
  rw [kept_arg3, agg_eq, s_eq, kept_arg1, kept_v2, kept_v5, kept_v3]
  rfl

/-- The kernel program's run with its result named. -/
theorem run :
    θ_run (defs (F := Ideal)) (onTc (τ := τ) (main (F := Ideal))) ⟨m, fun _ => 0, ρ⟩ (fun r => ∀ c : Dev nD,
      r.2.mem ((c.tc : Thread nD τ).loc main_v7)
          = out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (defs (F := Ideal)) _ _).mono (fun r h c => ⟨(h c).1.trans (result_eq m ρ c), (h c).2⟩)
    (RunValue.run_main (F := Ideal) m ρ)

end Cert.KernelIdeal.Whole

end
-- ==== Proof.RefValue.lean ====
import proofs.«152187_j6468220748479_1_alg».proof.Proof.Gen.ReferenceIdeal
import proofs.«152187_j6468220748479_1_alg».proof.Proof.Spec
import Idealize.ShloMosaic.Lib.StableHlo.Run
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.TcCoe Idealize.SL.Sem Idealize.ShloMosaic.StableHlo Idealize.ShloMosaic.ValueIdx
open Cert.ReferenceIdeal Cert.ReferenceIdeal.Gen Cert.EdgeMlp

/-! ## The reference's arithmetic as named terms, for every float family

The program applies one sixteen-operation chain (the log-sigmoid through the softplus) four times and one
"rows times transposed weights plus bias" stage twice. Each is named once, so that the composed result is a
short term over the ten arguments. -/

section Terms

variable {F : FTy → Type} [FloatOps F]

/-- The scalar zero broadcast to the activation shape. -/
def zeros : FVec F S32768x128 .f32 :=
  broadcastInDim S32768x128 ![] bcast_S_S32768x128 (constant S_ .f32 0x00000000#32)

/-- softplus(a) as the program spells it: a + 0 where a − 0 is not itself, else max(a, 0) + log1p(exp(−|a − 0|)). -/
def softplusH (a : FVec F S32768x128 .f32) : FVec F S32768x128 .f32 :=
  select (cmpf .une (subf a zeros) (subf a zeros)) (addf a zeros)
    (addf (maximumf a zeros) (Host.log1p (Host.exp (Host.negf (Host.absf (subf a zeros))))))

/-- log σ(x) = −softplus(−x). -/
def logSigH (x : FVec F S32768x128 .f32) : FVec F S32768x128 .f32 :=
  Host.negf (softplusH (Host.negf x))

/-- A one-dimensional bias laid along every row. -/
def biasH (b : FVec F S128 .f32) : FVec F S32768x128 .f32 :=
  broadcastInDim S32768x128 ![0, 1] bcast_S1x128_S32768x128_0_1 (broadcastInDim S1x128 ![1] bcast_S128_S1x128_1 b)

/-- H · Wᵀ for a 128 × 128 weight matrix given output-major. -/
def linH (H : FVec F S32768x128 .f32) (W : FVec F S128x128 .f32) : FVec F S32768x128 .f32 :=
  Host.dotGeneral dot_S32768x128_S128x128_S32768x128_1_0_0_1_n_n none H (transpose S128x128 [1, 0] W transposes_S128x128_S128x128_1_0)

/-- The first perceptron's pre-activation: X · W₁ᵀ + b₁. -/
def pre1H (X : FVec F S32768x128 .f32) (W : FVec F S128x128 .f32) (b : FVec F S128 .f32) : FVec F S32768x128 .f32 :=
  addf (linH X W) (biasH b)

/-- Aggregated messages beside features: [Mᵀ-array · (M · s) − s | Fe]. -/
def catH (s : FVec F S32768x128 .f32) (Fe : FVec F S32768x32 .f32) (M : FVec F S2048x32768 .f32) (MT : FVec F S32768x2048 .f32) :
    FVec F S32768x160 .f32 :=
  concatenate S32768x160 1
    [⟨S32768x128, subf (Host.dotGeneral dot_S32768x2048_S2048x128_S32768x128_1_0_0_1_n_n none MT (Host.dotGeneral dot_S2048x32768_S32768x128_S2048x128_1_0_0_1_n_n none M s)) s⟩, ⟨S32768x32, Fe⟩]
    concatenates_S32768x128_S32768x32_S32768x160_d1

/-- The second perceptron's pre-activation: cat · W₁ᵀ + b₁ with a 128 × 160 weight matrix. -/
def pre2H (s : FVec F S32768x128 .f32) (Fe : FVec F S32768x32 .f32) (M : FVec F S2048x32768 .f32) (MT : FVec F S32768x2048 .f32)
    (W : FVec F S128x160 .f32) (b : FVec F S128 .f32) : FVec F S32768x128 .f32 :=
  addf (Host.dotGeneral dot_S32768x160_S160x128_S32768x128_1_0_0_1_n_n none (catH s Fe M MT) (transpose S160x128 [1, 0] W transposes_S128x160_S160x128_1_0)) (biasH b)

/-- The message array: the state rows through the first perceptron. -/
def msgH (X : FVec F S32768x128 .f32) (W1 : FVec F S128x128 .f32) (b1 : FVec F S128 .f32) (W2 : FVec F S128x128 .f32) :
    FVec F S32768x128 .f32 :=
  logSigH (linH (logSigH (pre1H X W1 b1)) W2)

/-- The whole reference, from the ten arguments. -/
def refOut (X : FVec F S32768x128 .f32) (Fe : FVec F S32768x32 .f32) (M : FVec F S2048x32768 .f32) (MT : FVec F S32768x2048 .f32)
    (W1m : FVec F S128x128 .f32) (b1m : FVec F S128 .f32) (W2m : FVec F S128x128 .f32)
    (W1a : FVec F S128x160 .f32) (b1a : FVec F S128 .f32) (W2a : FVec F S128x128 .f32) : FVec F S32768x128 .f32 :=
  logSigH (linH (logSigH (pre2H (msgH X W1m b1m W2m) Fe M MT W1a b1a)) W2a)

end Terms

/-! ## The run

@main is one straight line of 82 host operations once the four calls are unfolded at their sites (each call:
the negation, the softplus's fourteen operations over that call's own buffers, the negation). The line is
read in eight stretches — pre-activation, chain, product, chain, pre-activation, chain, product, chain — each
giving its one result as a named term of the buffers it reads and leaving the arguments it does not write. -/

section Run

variable {F : FTy → Type} [FloatOps F]

/-- W₁ᵐ transposed, X · W₁ᵐᵀ, the bias as a row, the row along every edge, their sum. -/
abbrev opsPre1 : List (HloOp τ sig (Elt F)) :=
  [ unary main_arg4 main_v0 ((transpose S128x128 [1, 0] · transposes_S128x128_S128x128_1_0) : (⟨S128x128, .f32⟩ : BufTy).Contents (Elt F) → (⟨S128x128, .f32⟩ : BufTy).Contents (Elt F)),
    binary main_arg0 main_v0 main_v1 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_arg5 main_v2 (broadcastInDim S1x128 ![1] bcast_S128_S1x128_1 : (⟨S128, .f32⟩ : BufTy).Contents (Elt F) → (⟨S1x128, .f32⟩ : BufTy).Contents (Elt F)),
    unary main_v2 main_v3 (broadcastInDim S32768x128 ![0, 1] bcast_S1x128_S32768x128_0_1 : (⟨S1x128, .f32⟩ : BufTy).Contents (Elt F) → (⟨S32768x128, .f32⟩ : BufTy).Contents (Elt F)),
    binary main_v1 main_v3 main_v4 (addf : (⟨S32768x128, .f32⟩ : BufTy).Contents (Elt F) → (⟨S32768x128, .f32⟩ : BufTy).Contents (Elt F) → (⟨S32768x128, .f32⟩ : BufTy).Contents (Elt F)) ]

/-- The first log-sigmoid, over the record of @main's call 0. -/
abbrev opsAct0 : List (HloOp τ sig (Elt F)) :=
  [ TRef.unary (.of main_v4) main_call0.v0 Host.negf,
    TRef.nullary main_call0.call0.cst (constant S_ .f32 0x00000000#32),
    TRef.unary main_call0.call0.cst main_call0.call0.v0 (broadcastInDim S32768x128 ![] bcast_S_S32768x128),
    TRef.binary main_call0.v0 main_call0.call0.v0 main_call0.call0.v1 maximumf,
    TRef.unary main_call0.call0.cst main_call0.call0.v2 (broadcastInDim S32768x128 ![] bcast_S_S32768x128),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S32768x128 ![] bcast_S_S32768x128),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf ]

/-- W₂ᵐ transposed and the product with it. -/
abbrev opsLin1 : List (HloOp τ sig (Elt F)) :=
  [ unary main_arg6 main_v6 ((transpose S128x128 [1, 0] · transposes_S128x128_S128x128_1_0) : (⟨S128x128, .f32⟩ : BufTy).Contents (Elt F) → (⟨S128x128, .f32⟩ : BufTy).Contents (Elt F)),
    binary main_v5 main_v6 main_v7 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)) ]

/-- The second log-sigmoid (call 1): its result is the message array. -/
abbrev opsAct1 : List (HloOp τ sig (Elt F)) :=
  [ TRef.unary (.of main_v7) main_call1.v0 Host.negf,
    TRef.nullary main_call1.call0.cst (constant S_ .f32 0x00000000#32),
    TRef.unary main_call1.call0.cst main_call1.call0.v0 (broadcastInDim S32768x128 ![] bcast_S_S32768x128),
    TRef.binary main_call1.v0 main_call1.call0.v0 main_call1.call0.v1 maximumf,
    TRef.unary main_call1.call0.cst main_call1.call0.v2 (broadcastInDim S32768x128 ![] bcast_S_S32768x128),
    TRef.binary main_call1.v0 main_call1.call0.v2 main_call1.call0.v3 subf,
    TRef.binary main_call1.call0.v3 main_call1.call0.v3 main_call1.call0.v4 (cmpf .une),
    TRef.unary main_call1.call0.cst main_call1.call0.v5 (broadcastInDim S32768x128 ![] bcast_S_S32768x128),
    TRef.binary main_call1.v0 main_call1.call0.v5 main_call1.call0.v6 addf,
    TRef.unary main_call1.call0.v3 main_call1.call0.v7 Host.absf,
    TRef.unary main_call1.call0.v7 main_call1.call0.v8 Host.negf,
    TRef.unary main_call1.call0.v8 main_call1.call0.v9 Host.exp,
    TRef.unary main_call1.call0.v9 main_call1.call0.v10 Host.log1p,
    TRef.binary main_call1.call0.v1 main_call1.call0.v10 main_call1.call0.v11 addf,
    TRef.ternary main_call1.call0.v4 main_call1.call0.v6 main_call1.call0.v11 main_call1.call0.v12 select,
    TRef.unary main_call1.call0.v12 main_call1.v2 Host.negf ]

/-- M · s, the product back through the second incidence array, less s, the features laid beside, W₁ᵃ transposed, the product, the bias twice, the sum. -/
abbrev opsPre2 : List (HloOp τ sig (Elt F)) :=
  [ binary main_arg2 main_v8 main_v9 ((fun l r => Host.dotGeneral dot_S2048x32768_S32768x128_S2048x128_1_0_0_1_n_n none l r) : (⟨S2048x32768, .f32⟩ : BufTy).Contents (Elt F) → (⟨S32768x128, .f32⟩ : BufTy).Contents (Elt F) → (⟨S2048x128, .f32⟩ : BufTy).Contents (Elt F)),
    binary main_arg3 main_v9 main_v10 ((fun l r => Host.dotGeneral dot_S32768x2048_S2048x128_S32768x128_1_0_0_1_n_n none l r) : (⟨S32768x2048, .f32⟩ : BufTy).Contents (Elt F) → (⟨S2048x128, .f32⟩ : BufTy).Contents (Elt F) → (⟨S32768x128, .f32⟩ : BufTy).Contents (Elt F)),
    binary main_v10 main_v8 main_v11 (subf : (⟨S32768x128, .f32⟩ : BufTy).Contents (Elt F) → (⟨S32768x128, .f32⟩ : BufTy).Contents (Elt F) → (⟨S32768x128, .f32⟩ : BufTy).Contents (Elt F)),
    binary main_v11 main_arg1 main_v12 ((fun a b => concatenate S32768x160 1 [⟨S32768x128, a⟩, ⟨S32768x32, b⟩] concatenates_S32768x128_S32768x32_S32768x160_d1) : (⟨S32768x128, .f32⟩ : BufTy).Contents (Elt F) → (⟨S32768x32, .f32⟩ : BufTy).Contents (Elt F) → (⟨S32768x160, .f32⟩ : BufTy).Contents (Elt F)),
    unary main_arg7 main_v13 ((transpose S160x128 [1, 0] · transposes_S128x160_S160x128_1_0) : (⟨S128x160, .f32⟩ : BufTy).Contents (Elt F) → (⟨S160x128, .f32⟩ : BufTy).Contents (Elt F)),
    binary main_v12 main_v13 main_v14 ((fun l r => Host.dotGeneral dot_S32768x160_S160x128_S32768x128_1_0_0_1_n_n none l r) : (⟨S32768x160, .f32⟩ : BufTy).Contents (Elt F) → (⟨S160x128, .f32⟩ : BufTy).Contents (Elt F) → (⟨S32768x128, .f32⟩ : BufTy).Contents (Elt F)),
    unary main_arg8 main_v15 (broadcastInDim S1x128 ![1] bcast_S128_S1x128_1 : (⟨S128, .f32⟩ : BufTy).Contents (Elt F) → (⟨S1x128, .f32⟩ : BufTy).Contents (Elt F)),
    unary main_v15 main_v16 (broadcastInDim S32768x128 ![0, 1] bcast_S1x128_S32768x128_0_1 : (⟨S1x128, .f32⟩ : BufTy).Contents (Elt F) → (⟨S32768x128, .f32⟩ : BufTy).Contents (Elt F)),
    binary main_v14 main_v16 main_v17 (addf : (⟨S32768x128, .f32⟩ : BufTy).Contents (Elt F) → (⟨S32768x128, .f32⟩ : BufTy).Contents (Elt F) → (⟨S32768x128, .f32⟩ : BufTy).Contents (Elt F)) ]

/-- The third log-sigmoid (call 2). -/
abbrev opsAct2 : List (HloOp τ sig (Elt F)) :=
  [ TRef.unary (.of main_v17) main_call2.v0 Host.negf,
    TRef.nullary main_call2.call0.cst (constant S_ .f32 0x00000000#32),
    TRef.unary main_call2.call0.cst main_call2.call0.v0 (broadcastInDim S32768x128 ![] bcast_S_S32768x128),
    TRef.binary main_call2.v0 main_call2.call0.v0 main_call2.call0.v1 maximumf,
    TRef.unary main_call2.call0.cst main_call2.call0.v2 (broadcastInDim S32768x128 ![] bcast_S_S32768x128),
    TRef.binary main_call2.v0 main_call2.call0.v2 main_call2.call0.v3 subf,
    TRef.binary main_call2.call0.v3 main_call2.call0.v3 main_call2.call0.v4 (cmpf .une),
    TRef.unary main_call2.call0.cst main_call2.call0.v5 (broadcastInDim S32768x128 ![] bcast_S_S32768x128),
    TRef.binary main_call2.v0 main_call2.call0.v5 main_call2.call0.v6 addf,
    TRef.unary main_call2.call0.v3 main_call2.call0.v7 Host.absf,
    TRef.unary main_call2.call0.v7 main_call2.call0.v8 Host.negf,
    TRef.unary main_call2.call0.v8 main_call2.call0.v9 Host.exp,
    TRef.unary main_call2.call0.v9 main_call2.call0.v10 Host.log1p,
    TRef.binary main_call2.call0.v1 main_call2.call0.v10 main_call2.call0.v11 addf,
    TRef.ternary main_call2.call0.v4 main_call2.call0.v6 main_call2.call0.v11 main_call2.call0.v12 select,
    TRef.unary main_call2.call0.v12 main_call2.v2 Host.negf ]

/-- W₂ᵃ transposed and the product with it. -/
abbrev opsLin2 : List (HloOp τ sig (Elt F)) :=
  [ unary main_arg9 main_v19 ((transpose S128x128 [1, 0] · transposes_S128x128_S128x128_1_0) : (⟨S128x128, .f32⟩ : BufTy).Contents (Elt F) → (⟨S128x128, .f32⟩ : BufTy).Contents (Elt F)),
    binary main_v18 main_v19 main_v20 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)) ]

/-- The fourth log-sigmoid (call 3): its result is @main's. -/
abbrev opsAct3 : List (HloOp τ sig (Elt F)) :=
  [ TRef.unary (.of main_v20) main_call3.v0 Host.negf,
    TRef.nullary main_call3.call0.cst (constant S_ .f32 0x00000000#32),
    TRef.unary main_call3.call0.cst main_call3.call0.v0 (broadcastInDim S32768x128 ![] bcast_S_S32768x128),
    TRef.binary main_call3.v0 main_call3.call0.v0 main_call3.call0.v1 maximumf,
    TRef.unary main_call3.call0.cst main_call3.call0.v2 (broadcastInDim S32768x128 ![] bcast_S_S32768x128),
    TRef.binary main_call3.v0 main_call3.call0.v2 main_call3.call0.v3 subf,
    TRef.binary main_call3.call0.v3 main_call3.call0.v3 main_call3.call0.v4 (cmpf .une),
    TRef.unary main_call3.call0.cst main_call3.call0.v5 (broadcastInDim S32768x128 ![] bcast_S_S32768x128),
    TRef.binary main_call3.v0 main_call3.call0.v5 main_call3.call0.v6 addf,
    TRef.unary main_call3.call0.v3 main_call3.call0.v7 Host.absf,
    TRef.unary main_call3.call0.v7 main_call3.call0.v8 Host.negf,
    TRef.unary main_call3.call0.v8 main_call3.call0.v9 Host.exp,
    TRef.unary main_call3.call0.v9 main_call3.call0.v10 Host.log1p,
    TRef.binary main_call3.call0.v1 main_call3.call0.v10 main_call3.call0.v11 addf,
    TRef.ternary main_call3.call0.v4 main_call3.call0.v6 main_call3.call0.v11 main_call3.call0.v12 select,
    TRef.unary main_call3.call0.v12 main_call3.v2 Host.negf ]

/-- @main's 82 operations, in order. -/
abbrev ops : List (HloOp τ sig (Elt F)) :=
  [ unary main_arg4 main_v0 ((transpose S128x128 [1, 0] · transposes_S128x128_S128x128_1_0) : (⟨S128x128, .f32⟩ : BufTy).Contents (Elt F) → (⟨S128x128, .f32⟩ : BufTy).Contents (Elt F)),
    binary main_arg0 main_v0 main_v1 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_arg5 main_v2 (broadcastInDim S1x128 ![1] bcast_S128_S1x128_1 : (⟨S128, .f32⟩ : BufTy).Contents (Elt F) → (⟨S1x128, .f32⟩ : BufTy).Contents (Elt F)),
    unary main_v2 main_v3 (broadcastInDim S32768x128 ![0, 1] bcast_S1x128_S32768x128_0_1 : (⟨S1x128, .f32⟩ : BufTy).Contents (Elt F) → (⟨S32768x128, .f32⟩ : BufTy).Contents (Elt F)),
    binary main_v1 main_v3 main_v4 (addf : (⟨S32768x128, .f32⟩ : BufTy).Contents (Elt F) → (⟨S32768x128, .f32⟩ : BufTy).Contents (Elt F) → (⟨S32768x128, .f32⟩ : BufTy).Contents (Elt F)),
    TRef.unary (.of main_v4) main_call0.v0 Host.negf,
    TRef.nullary main_call0.call0.cst (constant S_ .f32 0x00000000#32),
    TRef.unary main_call0.call0.cst main_call0.call0.v0 (broadcastInDim S32768x128 ![] bcast_S_S32768x128),
    TRef.binary main_call0.v0 main_call0.call0.v0 main_call0.call0.v1 maximumf,
    TRef.unary main_call0.call0.cst main_call0.call0.v2 (broadcastInDim S32768x128 ![] bcast_S_S32768x128),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S32768x128 ![] bcast_S_S32768x128),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    unary main_arg6 main_v6 ((transpose S128x128 [1, 0] · transposes_S128x128_S128x128_1_0) : (⟨S128x128, .f32⟩ : BufTy).Contents (Elt F) → (⟨S128x128, .f32⟩ : BufTy).Contents (Elt F)),
    binary main_v5 main_v6 main_v7 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    TRef.unary (.of main_v7) main_call1.v0 Host.negf,
    TRef.nullary main_call1.call0.cst (constant S_ .f32 0x00000000#32),
    TRef.unary main_call1.call0.cst main_call1.call0.v0 (broadcastInDim S32768x128 ![] bcast_S_S32768x128),
    TRef.binary main_call1.v0 main_call1.call0.v0 main_call1.call0.v1 maximumf,
    TRef.unary main_call1.call0.cst main_call1.call0.v2 (broadcastInDim S32768x128 ![] bcast_S_S32768x128),
    TRef.binary main_call1.v0 main_call1.call0.v2 main_call1.call0.v3 subf,
    TRef.binary main_call1.call0.v3 main_call1.call0.v3 main_call1.call0.v4 (cmpf .une),
    TRef.unary main_call1.call0.cst main_call1.call0.v5 (broadcastInDim S32768x128 ![] bcast_S_S32768x128),
    TRef.binary main_call1.v0 main_call1.call0.v5 main_call1.call0.v6 addf,
    TRef.unary main_call1.call0.v3 main_call1.call0.v7 Host.absf,
    TRef.unary main_call1.call0.v7 main_call1.call0.v8 Host.negf,
    TRef.unary main_call1.call0.v8 main_call1.call0.v9 Host.exp,
    TRef.unary main_call1.call0.v9 main_call1.call0.v10 Host.log1p,
    TRef.binary main_call1.call0.v1 main_call1.call0.v10 main_call1.call0.v11 addf,
    TRef.ternary main_call1.call0.v4 main_call1.call0.v6 main_call1.call0.v11 main_call1.call0.v12 select,
    TRef.unary main_call1.call0.v12 main_call1.v2 Host.negf,
    binary main_arg2 main_v8 main_v9 ((fun l r => Host.dotGeneral dot_S2048x32768_S32768x128_S2048x128_1_0_0_1_n_n none l r) : (⟨S2048x32768, .f32⟩ : BufTy).Contents (Elt F) → (⟨S32768x128, .f32⟩ : BufTy).Contents (Elt F) → (⟨S2048x128, .f32⟩ : BufTy).Contents (Elt F)),
    binary main_arg3 main_v9 main_v10 ((fun l r => Host.dotGeneral dot_S32768x2048_S2048x128_S32768x128_1_0_0_1_n_n none l r) : (⟨S32768x2048, .f32⟩ : BufTy).Contents (Elt F) → (⟨S2048x128, .f32⟩ : BufTy).Contents (Elt F) → (⟨S32768x128, .f32⟩ : BufTy).Contents (Elt F)),
    binary main_v10 main_v8 main_v11 (subf : (⟨S32768x128, .f32⟩ : BufTy).Contents (Elt F) → (⟨S32768x128, .f32⟩ : BufTy).Contents (Elt F) → (⟨S32768x128, .f32⟩ : BufTy).Contents (Elt F)),
    binary main_v11 main_arg1 main_v12 ((fun a b => concatenate S32768x160 1 [⟨S32768x128, a⟩, ⟨S32768x32, b⟩] concatenates_S32768x128_S32768x32_S32768x160_d1) : (⟨S32768x128, .f32⟩ : BufTy).Contents (Elt F) → (⟨S32768x32, .f32⟩ : BufTy).Contents (Elt F) → (⟨S32768x160, .f32⟩ : BufTy).Contents (Elt F)),
    unary main_arg7 main_v13 ((transpose S160x128 [1, 0] · transposes_S128x160_S160x128_1_0) : (⟨S128x160, .f32⟩ : BufTy).Contents (Elt F) → (⟨S160x128, .f32⟩ : BufTy).Contents (Elt F)),
    binary main_v12 main_v13 main_v14 ((fun l r => Host.dotGeneral dot_S32768x160_S160x128_S32768x128_1_0_0_1_n_n none l r) : (⟨S32768x160, .f32⟩ : BufTy).Contents (Elt F) → (⟨S160x128, .f32⟩ : BufTy).Contents (Elt F) → (⟨S32768x128, .f32⟩ : BufTy).Contents (Elt F)),
    unary main_arg8 main_v15 (broadcastInDim S1x128 ![1] bcast_S128_S1x128_1 : (⟨S128, .f32⟩ : BufTy).Contents (Elt F) → (⟨S1x128, .f32⟩ : BufTy).Contents (Elt F)),
    unary main_v15 main_v16 (broadcastInDim S32768x128 ![0, 1] bcast_S1x128_S32768x128_0_1 : (⟨S1x128, .f32⟩ : BufTy).Contents (Elt F) → (⟨S32768x128, .f32⟩ : BufTy).Contents (Elt F)),
    binary main_v14 main_v16 main_v17 (addf : (⟨S32768x128, .f32⟩ : BufTy).Contents (Elt F) → (⟨S32768x128, .f32⟩ : BufTy).Contents (Elt F) → (⟨S32768x128, .f32⟩ : BufTy).Contents (Elt F)),
    TRef.unary (.of main_v17) main_call2.v0 Host.negf,
    TRef.nullary main_call2.call0.cst (constant S_ .f32 0x00000000#32),
    TRef.unary main_call2.call0.cst main_call2.call0.v0 (broadcastInDim S32768x128 ![] bcast_S_S32768x128),
    TRef.binary main_call2.v0 main_call2.call0.v0 main_call2.call0.v1 maximumf,
    TRef.unary main_call2.call0.cst main_call2.call0.v2 (broadcastInDim S32768x128 ![] bcast_S_S32768x128),
    TRef.binary main_call2.v0 main_call2.call0.v2 main_call2.call0.v3 subf,
    TRef.binary main_call2.call0.v3 main_call2.call0.v3 main_call2.call0.v4 (cmpf .une),
    TRef.unary main_call2.call0.cst main_call2.call0.v5 (broadcastInDim S32768x128 ![] bcast_S_S32768x128),
    TRef.binary main_call2.v0 main_call2.call0.v5 main_call2.call0.v6 addf,
    TRef.unary main_call2.call0.v3 main_call2.call0.v7 Host.absf,
    TRef.unary main_call2.call0.v7 main_call2.call0.v8 Host.negf,
    TRef.unary main_call2.call0.v8 main_call2.call0.v9 Host.exp,
    TRef.unary main_call2.call0.v9 main_call2.call0.v10 Host.log1p,
    TRef.binary main_call2.call0.v1 main_call2.call0.v10 main_call2.call0.v11 addf,
    TRef.ternary main_call2.call0.v4 main_call2.call0.v6 main_call2.call0.v11 main_call2.call0.v12 select,
    TRef.unary main_call2.call0.v12 main_call2.v2 Host.negf,
    unary main_arg9 main_v19 ((transpose S128x128 [1, 0] · transposes_S128x128_S128x128_1_0) : (⟨S128x128, .f32⟩ : BufTy).Contents (Elt F) → (⟨S128x128, .f32⟩ : BufTy).Contents (Elt F)),
    binary main_v18 main_v19 main_v20 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    TRef.unary (.of main_v20) main_call3.v0 Host.negf,
    TRef.nullary main_call3.call0.cst (constant S_ .f32 0x00000000#32),
    TRef.unary main_call3.call0.cst main_call3.call0.v0 (broadcastInDim S32768x128 ![] bcast_S_S32768x128),
    TRef.binary main_call3.v0 main_call3.call0.v0 main_call3.call0.v1 maximumf,
    TRef.unary main_call3.call0.cst main_call3.call0.v2 (broadcastInDim S32768x128 ![] bcast_S_S32768x128),
    TRef.binary main_call3.v0 main_call3.call0.v2 main_call3.call0.v3 subf,
    TRef.binary main_call3.call0.v3 main_call3.call0.v3 main_call3.call0.v4 (cmpf .une),
    TRef.unary main_call3.call0.cst main_call3.call0.v5 (broadcastInDim S32768x128 ![] bcast_S_S32768x128),
    TRef.binary main_call3.v0 main_call3.call0.v5 main_call3.call0.v6 addf,
    TRef.unary main_call3.call0.v3 main_call3.call0.v7 Host.absf,
    TRef.unary main_call3.call0.v7 main_call3.call0.v8 Host.negf,
    TRef.unary main_call3.call0.v8 main_call3.call0.v9 Host.exp,
    TRef.unary main_call3.call0.v9 main_call3.call0.v10 Host.log1p,
    TRef.binary main_call3.call0.v1 main_call3.call0.v10 main_call3.call0.v11 addf,
    TRef.ternary main_call3.call0.v4 main_call3.call0.v6 main_call3.call0.v11 main_call3.call0.v12 select,
    TRef.unary main_call3.call0.v12 main_call3.v2 Host.negf ]

/-- The line is its eight stretches one after the other. -/
theorem ops_eq : (ops : List (HloOp τ sig (Elt F))) = opsPre1 ++ opsAct0 ++ opsLin1 ++ opsAct1 ++ opsPre2 ++ opsAct2 ++ opsLin2 ++ opsAct3 := rfl

set_option maxHeartbeats 4000000 in
/-- @main is that straight line: the two functions unfolded at their calls and sequencing reassociated. -/
theorem main_eq (c : Dev nD) : main (F := F) c = seq ops := by
  simp only [main, fn_log_sigmoid.body, fn_softplus.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., unary_bufs_sub .., binary_bufs_sub .., unary_bufs_sub ..,
    nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub .., unary_bufs_sub .., unary_bufs_sub .., binary_bufs_sub .., unary_bufs_sub ..,
    nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub .., unary_bufs_sub .., binary_bufs_sub .., binary_bufs_sub .., binary_bufs_sub ..,
    binary_bufs_sub .., unary_bufs_sub .., binary_bufs_sub .., unary_bufs_sub .., unary_bufs_sub .., binary_bufs_sub ..,
    unary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub ..,
    unary_bufs_sub .., binary_bufs_sub .., ternary_bufs_sub .., unary_bufs_sub .., unary_bufs_sub .., binary_bufs_sub ..,
    unary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub ..,
    unary_bufs_sub .., binary_bufs_sub .., ternary_bufs_sub .., unary_bufs_sub ..⟩

/-- Every weakly fair execution of @main terminates with each buffer at the fold of the 82 operations over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ### Each stretch's result, and the arguments it leaves -/

theorem pre1_v4 (V : Valuation τ sig (Elt F)) :
    after opsPre1 V (main_v4 : DevRef τ sig) = pre1H (V (main_arg0 : DevRef τ sig)) (V (main_arg4 : DevRef τ sig)) (V (main_arg5 : DevRef τ sig)) := by
  after_results_simp
  rfl
theorem act0_v5 (V : Valuation τ sig (Elt F)) : after opsAct0 V (main_v5 : DevRef τ sig) = logSigH (V (main_v4 : DevRef τ sig)) := by
  after_results_simp
  rfl
theorem lin1_v7 (V : Valuation τ sig (Elt F)) : after opsLin1 V (main_v7 : DevRef τ sig) = linH (V (main_v5 : DevRef τ sig)) (V (main_arg6 : DevRef τ sig)) := by
  after_results_simp
  rfl
theorem act1_v8 (V : Valuation τ sig (Elt F)) : after opsAct1 V (main_v8 : DevRef τ sig) = logSigH (V (main_v7 : DevRef τ sig)) := by
  after_results_simp
  rfl
theorem pre2_v17 (V : Valuation τ sig (Elt F)) :
    after opsPre2 V (main_v17 : DevRef τ sig) = pre2H (V (main_v8 : DevRef τ sig)) (V (main_arg1 : DevRef τ sig)) (V (main_arg2 : DevRef τ sig)) (V (main_arg3 : DevRef τ sig))
      (V (main_arg7 : DevRef τ sig)) (V (main_arg8 : DevRef τ sig)) := by
  after_results
  rfl
theorem act2_v18 (V : Valuation τ sig (Elt F)) : after opsAct2 V (main_v18 : DevRef τ sig) = logSigH (V (main_v17 : DevRef τ sig)) := by
  after_results_simp
  rfl
theorem lin2_v20 (V : Valuation τ sig (Elt F)) : after opsLin2 V (main_v20 : DevRef τ sig) = linH (V (main_v18 : DevRef τ sig)) (V (main_arg9 : DevRef τ sig)) := by
  after_results_simp
  rfl
theorem act3_v21 (V : Valuation τ sig (Elt F)) : after opsAct3 V (main_v21 : DevRef τ sig) = logSigH (V (main_v20 : DevRef τ sig)) := by
  after_results_simp
  rfl

theorem pre1_arg1 (V : Valuation τ sig (Elt F)) : after opsPre1 V (main_arg1 : DevRef τ sig) = V (main_arg1 : DevRef τ sig) := by after_results_simp
theorem pre1_arg2 (V : Valuation τ sig (Elt F)) : after opsPre1 V (main_arg2 : DevRef τ sig) = V (main_arg2 : DevRef τ sig) := by after_results_simp
theorem pre1_arg3 (V : Valuation τ sig (Elt F)) : after opsPre1 V (main_arg3 : DevRef τ sig) = V (main_arg3 : DevRef τ sig) := by after_results_simp
theorem pre1_arg6 (V : Valuation τ sig (Elt F)) : after opsPre1 V (main_arg6 : DevRef τ sig) = V (main_arg6 : DevRef τ sig) := by after_results_simp
theorem pre1_arg7 (V : Valuation τ sig (Elt F)) : after opsPre1 V (main_arg7 : DevRef τ sig) = V (main_arg7 : DevRef τ sig) := by after_results_simp
theorem pre1_arg8 (V : Valuation τ sig (Elt F)) : after opsPre1 V (main_arg8 : DevRef τ sig) = V (main_arg8 : DevRef τ sig) := by after_results_simp
theorem pre1_arg9 (V : Valuation τ sig (Elt F)) : after opsPre1 V (main_arg9 : DevRef τ sig) = V (main_arg9 : DevRef τ sig) := by after_results_simp
theorem act0_arg1 (V : Valuation τ sig (Elt F)) : after opsAct0 V (main_arg1 : DevRef τ sig) = V (main_arg1 : DevRef τ sig) := by after_results_simp
theorem act0_arg2 (V : Valuation τ sig (Elt F)) : after opsAct0 V (main_arg2 : DevRef τ sig) = V (main_arg2 : DevRef τ sig) := by after_results_simp
theorem act0_arg3 (V : Valuation τ sig (Elt F)) : after opsAct0 V (main_arg3 : DevRef τ sig) = V (main_arg3 : DevRef τ sig) := by after_results_simp
theorem act0_arg6 (V : Valuation τ sig (Elt F)) : after opsAct0 V (main_arg6 : DevRef τ sig) = V (main_arg6 : DevRef τ sig) := by after_results_simp
theorem act0_arg7 (V : Valuation τ sig (Elt F)) : after opsAct0 V (main_arg7 : DevRef τ sig) = V (main_arg7 : DevRef τ sig) := by after_results_simp
theorem act0_arg8 (V : Valuation τ sig (Elt F)) : after opsAct0 V (main_arg8 : DevRef τ sig) = V (main_arg8 : DevRef τ sig) := by after_results_simp
theorem act0_arg9 (V : Valuation τ sig (Elt F)) : after opsAct0 V (main_arg9 : DevRef τ sig) = V (main_arg9 : DevRef τ sig) := by after_results_simp
theorem lin1_arg1 (V : Valuation τ sig (Elt F)) : after opsLin1 V (main_arg1 : DevRef τ sig) = V (main_arg1 : DevRef τ sig) := by after_results_simp
theorem lin1_arg2 (V : Valuation τ sig (Elt F)) : after opsLin1 V (main_arg2 : DevRef τ sig) = V (main_arg2 : DevRef τ sig) := by after_results_simp
theorem lin1_arg3 (V : Valuation τ sig (Elt F)) : after opsLin1 V (main_arg3 : DevRef τ sig) = V (main_arg3 : DevRef τ sig) := by after_results_simp
theorem lin1_arg7 (V : Valuation τ sig (Elt F)) : after opsLin1 V (main_arg7 : DevRef τ sig) = V (main_arg7 : DevRef τ sig) := by after_results_simp
theorem lin1_arg8 (V : Valuation τ sig (Elt F)) : after opsLin1 V (main_arg8 : DevRef τ sig) = V (main_arg8 : DevRef τ sig) := by after_results_simp
theorem lin1_arg9 (V : Valuation τ sig (Elt F)) : after opsLin1 V (main_arg9 : DevRef τ sig) = V (main_arg9 : DevRef τ sig) := by after_results_simp
theorem act1_arg1 (V : Valuation τ sig (Elt F)) : after opsAct1 V (main_arg1 : DevRef τ sig) = V (main_arg1 : DevRef τ sig) := by after_results_simp
theorem act1_arg2 (V : Valuation τ sig (Elt F)) : after opsAct1 V (main_arg2 : DevRef τ sig) = V (main_arg2 : DevRef τ sig) := by after_results_simp
theorem act1_arg3 (V : Valuation τ sig (Elt F)) : after opsAct1 V (main_arg3 : DevRef τ sig) = V (main_arg3 : DevRef τ sig) := by after_results_simp
theorem act1_arg7 (V : Valuation τ sig (Elt F)) : after opsAct1 V (main_arg7 : DevRef τ sig) = V (main_arg7 : DevRef τ sig) := by after_results_simp
theorem act1_arg8 (V : Valuation τ sig (Elt F)) : after opsAct1 V (main_arg8 : DevRef τ sig) = V (main_arg8 : DevRef τ sig) := by after_results_simp
theorem act1_arg9 (V : Valuation τ sig (Elt F)) : after opsAct1 V (main_arg9 : DevRef τ sig) = V (main_arg9 : DevRef τ sig) := by after_results_simp
theorem pre2_arg9 (V : Valuation τ sig (Elt F)) : after opsPre2 V (main_arg9 : DevRef τ sig) = V (main_arg9 : DevRef τ sig) := by after_results_simp
theorem act2_arg9 (V : Valuation τ sig (Elt F)) : after opsAct2 V (main_arg9 : DevRef τ sig) = V (main_arg9 : DevRef τ sig) := by after_results_simp

/-- The result buffer after the whole line: the named term of the ten arguments. -/
theorem after_v21 (V : Valuation τ sig (Elt F)) :
    after ops V (main_v21 : DevRef τ sig) = refOut (V (main_arg0 : DevRef τ sig)) (V (main_arg1 : DevRef τ sig)) (V (main_arg2 : DevRef τ sig)) (V (main_arg3 : DevRef τ sig))
      (V (main_arg4 : DevRef τ sig)) (V (main_arg5 : DevRef τ sig)) (V (main_arg6 : DevRef τ sig)) (V (main_arg7 : DevRef τ sig)) (V (main_arg8 : DevRef τ sig)) (V (main_arg9 : DevRef τ sig)) := by
  rw [ops_eq]
  simp only [after_append]
  rw [act3_v21, lin2_v20, act2_v18, act2_arg9, pre2_v17, pre2_arg9,
    act1_v8, act1_arg1, act1_arg2, act1_arg3, act1_arg7, act1_arg8, act1_arg9,
    lin1_v7, lin1_arg1, lin1_arg2, lin1_arg3, lin1_arg7, lin1_arg8, lin1_arg9,
    act0_v5, act0_arg1, act0_arg2, act0_arg3, act0_arg6, act0_arg7, act0_arg8, act0_arg9,
    pre1_v4, pre1_arg1, pre1_arg2, pre1_arg3, pre1_arg6, pre1_arg7, pre1_arg8, pre1_arg9]
  rfl

theorem after_arg0 (V : Valuation τ sig (Elt F)) : after ops V (main_arg0 : DevRef τ sig) = V (main_arg0 : DevRef τ sig) := by after_results_simp
theorem after_arg1 (V : Valuation τ sig (Elt F)) : after ops V (main_arg1 : DevRef τ sig) = V (main_arg1 : DevRef τ sig) := by after_results_simp
theorem after_arg2 (V : Valuation τ sig (Elt F)) : after ops V (main_arg2 : DevRef τ sig) = V (main_arg2 : DevRef τ sig) := by after_results_simp
theorem after_arg3 (V : Valuation τ sig (Elt F)) : after ops V (main_arg3 : DevRef τ sig) = V (main_arg3 : DevRef τ sig) := by after_results_simp
theorem after_arg4 (V : Valuation τ sig (Elt F)) : after ops V (main_arg4 : DevRef τ sig) = V (main_arg4 : DevRef τ sig) := by after_results_simp
theorem after_arg5 (V : Valuation τ sig (Elt F)) : after ops V (main_arg5 : DevRef τ sig) = V (main_arg5 : DevRef τ sig) := by after_results_simp
theorem after_arg6 (V : Valuation τ sig (Elt F)) : after ops V (main_arg6 : DevRef τ sig) = V (main_arg6 : DevRef τ sig) := by after_results_simp
theorem after_arg7 (V : Valuation τ sig (Elt F)) : after ops V (main_arg7 : DevRef τ sig) = V (main_arg7 : DevRef τ sig) := by after_results_simp
theorem after_arg8 (V : Valuation τ sig (Elt F)) : after ops V (main_arg8 : DevRef τ sig) = V (main_arg8 : DevRef τ sig) := by after_results_simp
theorem after_arg9 (V : Valuation τ sig (Elt F)) : after ops V (main_arg9 : DevRef τ sig) = V (main_arg9 : DevRef τ sig) := by after_results_simp

end Run

/-! ## The named terms read at an index, on the extended reals

At the ideal values every operation is exact, so each named term at an index is the specification's
expression there: the chain is `lsig`, a product is the plain sum over its contracted axis, a transpose swaps
the two coordinates, the bias reads its one coordinate, the concatenation picks a piece by the column. -/

section Read

theorem zeros_apply (i : S32768x128.Idx) : (zeros (F := Ideal)) i = 0 := by
  unfold zeros
  refine (broadcastInDim_apply (![] : Fin S_.rank → Fin S32768x128.rank) bcast_S_S32768x128 _ i ix0 (fun a => a.elim0)).trans ?_
  exact Ideal.ofBits_zero_f32

/-- A value is never unequal to itself on the extended reals, so the "not a number" test answers no. -/
theorem une_self (x : EReal) : Ideal.cmp .une x x = 0#1 := by
  unfold Ideal.cmp
  simp

theorem softplusH_apply (a : FVec Ideal S32768x128 .f32) (i : S32768x128.Idx) :
    softplusH a i = max (a i) 0 + Ideal.log1p (Ideal.exp (-(max (a i) (-(a i))))) := by
  unfold softplusH
  rw [select_apply, cmpf_apply, subf_apply, zeros_apply, sub_zero, Ideal.cmpf_def, une_self, select_zero, addf_apply,
    maximumf_apply, zeros_apply]
  show max (a i) 0 + Ideal.log1p (Ideal.exp (-(max ((subf a zeros) i) (-((subf a zeros) i))))) = _
  rw [subf_apply, zeros_apply, sub_zero]

theorem logSigH_apply (x : FVec Ideal S32768x128 .f32) (i : S32768x128.Idx) : logSigH x i = lsig (x i) := by
  unfold logSigH lsig
  show -(softplusH (Host.negf x) i) = _
  rw [softplusH_apply]
  rfl

theorem tr128_apply {α : Type} (W : S128x128.Idx → α) (k j : Fin 128) :
    transpose S128x128 [1, 0] W transposes_S128x128_S128x128_1_0 (ix2 k j) = W (ix2 j k) :=
  transpose_apply [1, 0] W transposes_S128x128_S128x128_1_0 (ix2 k j) (ix2 j k) (fun b => by
    match b with
    | ⟨0, _⟩ => rfl
    | ⟨1, _⟩ => rfl)

theorem tr160_apply {α : Type} (W : S128x160.Idx → α) (q : Fin 160) (k : Fin 128) :
    transpose S160x128 [1, 0] W transposes_S128x160_S160x128_1_0 (ix2 q k) = W (ix2 k q) :=
  transpose_apply [1, 0] W transposes_S128x160_S160x128_1_0 (ix2 q k) (ix2 k q) (fun b => by
    match b with
    | ⟨0, _⟩ => rfl
    | ⟨1, _⟩ => rfl)

theorem biasH_apply (b : FVec Ideal S128 .f32) (e : Fin 32768) (k : Fin 128) : biasH b (ix2 e k) = b (ix1 k) := by
  unfold biasH
  rw [broadcastInDim_apply ![0, 1] bcast_S1x128_S32768x128_0_1 _ (ix2 e k) (ix2 (0 : Fin 1) k) (fun a => by
        match a with
        | ⟨0, _⟩ => rfl
        | ⟨1, _⟩ => rfl),
    broadcastInDim_apply ![1] bcast_S128_S1x128_1 b (ix2 (0 : Fin 1) k) (ix1 k) (fun a => by
        match a with
        | ⟨0, _⟩ => rfl)]

theorem cat_left {α : Type} (A : S32768x128.Idx → α) (B : S32768x32.Idx → α) (e : Fin 32768) (q : Fin 160) (h : q.val < 128) :
    concatenate S32768x160 1 [⟨S32768x128, A⟩, ⟨S32768x32, B⟩] concatenates_S32768x128_S32768x32_S32768x160_d1 (ix2 e q)
      = A (ix2 e ⟨q.val, h⟩) :=
  concatenate_pair_apply_left _ A B concatenates_S32768x128_S32768x32_S32768x160_d1 (ix2 e q) rfl (ix2 e ⟨q.val, h⟩) (fun b => by
    match b with
    | ⟨0, _⟩ => rfl
    | ⟨1, _⟩ => rfl)

theorem cat_right {α : Type} (A : S32768x128.Idx → α) (B : S32768x32.Idx → α) (e : Fin 32768) (q : Fin 160) (h : ¬q.val < 128) :
    concatenate S32768x160 1 [⟨S32768x128, A⟩, ⟨S32768x32, B⟩] concatenates_S32768x128_S32768x32_S32768x160_d1 (ix2 e q)
      = B (ix2 e ⟨q.val - 128, by have := q.isLt; omega⟩) :=
  concatenate_pair_apply_right _ A B concatenates_S32768x128_S32768x32_S32768x160_d1 (ix2 e q) rfl rfl
    (ix2 e ⟨q.val - 128, by have := q.isLt; omega⟩)
    (fun b hb => by
      match b with
      | ⟨0, _⟩ => rfl
      | ⟨1, _⟩ => exact absurd rfl hb)
    (by show q.val - 128 + 128 = q.val; omega)

/-! The [32768,128] · [128,128] product: the operand indices, axis by axis, then the element as the sum over the contracted axis. -/

theorem lhs_dot1_0 (i : S32768x128.Idx) (q : dot_S32768x128_S128x128_S32768x128_1_0_0_1_n_n.contr.Idx) :
    (dot_S32768x128_S128x128_S32768x128_1_0_0_1_n_n.lhsIdx i q 0).val = (i 0).val := by
  unfold DotDims.lhsIdx
  rw [dif_neg (show ¬(0 : Fin S32768x128.rank) ∈ dot_S32768x128_S128x128_S32768x128_1_0_0_1_n_n.lhsBatch by decide), dif_pos (show (0 : Fin S32768x128.rank) ∈ dot_S32768x128_S128x128_S32768x128_1_0_0_1_n_n.lhsNonContracting by decide)]
  rfl
theorem lhs_dot1_1 (i : S32768x128.Idx) (q : dot_S32768x128_S128x128_S32768x128_1_0_0_1_n_n.contr.Idx) :
    (dot_S32768x128_S128x128_S32768x128_1_0_0_1_n_n.lhsIdx i q 1).val = (q ⟨0, by decide⟩).val :=
  dot_S32768x128_S128x128_S32768x128_1_0_0_1_n_n.lhsIdx_val_of_single rfl i q
theorem rhs_dot1_0 (i : S32768x128.Idx) (q : dot_S32768x128_S128x128_S32768x128_1_0_0_1_n_n.contr.Idx) :
    (dot_S32768x128_S128x128_S32768x128_1_0_0_1_n_n.rhsIdx i q 0).val = (q ⟨0, by decide⟩).val :=
  dot_S32768x128_S128x128_S32768x128_1_0_0_1_n_n.rhsIdx_val_of_single rfl i q
theorem rhs_dot1_1 (i : S32768x128.Idx) (q : dot_S32768x128_S128x128_S32768x128_1_0_0_1_n_n.contr.Idx) :
    (dot_S32768x128_S128x128_S32768x128_1_0_0_1_n_n.rhsIdx i q 1).val = (i 1).val := by
  unfold DotDims.rhsIdx
  rw [dif_neg (show ¬(1 : Fin S128x128.rank) ∈ dot_S32768x128_S128x128_S32768x128_1_0_0_1_n_n.rhsBatch by decide), dif_pos (show (1 : Fin S128x128.rank) ∈ dot_S32768x128_S128x128_S32768x128_1_0_0_1_n_n.rhsNonContracting by decide)]
  rfl

theorem dot1_apply (L : FVec Ideal S32768x128 .f32) (R : FVec Ideal S128x128 .f32) (p : Fin 32768) (c : Fin 128) :
    Host.dotGeneral dot_S32768x128_S128x128_S32768x128_1_0_0_1_n_n none L R (ix2 p c) = ∑ k : Fin 128, L (ix2 p k) * R (ix2 k c) := by
  simp only [Host.dotGeneral]
  rw [Ideal.dotGeneral_apply, ← Equiv.sum_comp (ValueIdx.contrEquiv1 dot_S32768x128_S128x128_S32768x128_1_0_0_1_n_n 128 rfl rfl).symm]
  refine Finset.sum_congr rfl fun k _ => ?_
  have hk := ValueIdx.contrEquiv1_symm_val dot_S32768x128_S128x128_S32768x128_1_0_0_1_n_n 128 rfl rfl k
  have el : dot_S32768x128_S128x128_S32768x128_1_0_0_1_n_n.lhsIdx (ix2 p c) ((ValueIdx.contrEquiv1 dot_S32768x128_S128x128_S32768x128_1_0_0_1_n_n 128 rfl rfl).symm k) = ix2 p k := funext fun a => Fin.ext (by
    match a with
    | ⟨0, _⟩ => exact lhs_dot1_0 _ _
    | ⟨1, _⟩ => exact (lhs_dot1_1 _ _).trans hk)
  have er : dot_S32768x128_S128x128_S32768x128_1_0_0_1_n_n.rhsIdx (ix2 p c) ((ValueIdx.contrEquiv1 dot_S32768x128_S128x128_S32768x128_1_0_0_1_n_n 128 rfl rfl).symm k) = ix2 k c := funext fun a => Fin.ext (by
    match a with
    | ⟨0, _⟩ => exact (rhs_dot1_0 _ _).trans hk
    | ⟨1, _⟩ => exact rhs_dot1_1 _ _)
  rw [el, er]

/-! The [2048,32768] · [32768,128] product: the operand indices, axis by axis, then the element as the sum over the contracted axis. -/

theorem lhs_dot2_0 (i : S2048x128.Idx) (q : dot_S2048x32768_S32768x128_S2048x128_1_0_0_1_n_n.contr.Idx) :
    (dot_S2048x32768_S32768x128_S2048x128_1_0_0_1_n_n.lhsIdx i q 0).val = (i 0).val := by
  unfold DotDims.lhsIdx
  rw [dif_neg (show ¬(0 : Fin S2048x32768.rank) ∈ dot_S2048x32768_S32768x128_S2048x128_1_0_0_1_n_n.lhsBatch by decide), dif_pos (show (0 : Fin S2048x32768.rank) ∈ dot_S2048x32768_S32768x128_S2048x128_1_0_0_1_n_n.lhsNonContracting by decide)]
  rfl
theorem lhs_dot2_1 (i : S2048x128.Idx) (q : dot_S2048x32768_S32768x128_S2048x128_1_0_0_1_n_n.contr.Idx) :
    (dot_S2048x32768_S32768x128_S2048x128_1_0_0_1_n_n.lhsIdx i q 1).val = (q ⟨0, by decide⟩).val :=
  dot_S2048x32768_S32768x128_S2048x128_1_0_0_1_n_n.lhsIdx_val_of_single rfl i q
theorem rhs_dot2_0 (i : S2048x128.Idx) (q : dot_S2048x32768_S32768x128_S2048x128_1_0_0_1_n_n.contr.Idx) :
    (dot_S2048x32768_S32768x128_S2048x128_1_0_0_1_n_n.rhsIdx i q 0).val = (q ⟨0, by decide⟩).val :=
  dot_S2048x32768_S32768x128_S2048x128_1_0_0_1_n_n.rhsIdx_val_of_single rfl i q
theorem rhs_dot2_1 (i : S2048x128.Idx) (q : dot_S2048x32768_S32768x128_S2048x128_1_0_0_1_n_n.contr.Idx) :
    (dot_S2048x32768_S32768x128_S2048x128_1_0_0_1_n_n.rhsIdx i q 1).val = (i 1).val := by
  unfold DotDims.rhsIdx
  rw [dif_neg (show ¬(1 : Fin S32768x128.rank) ∈ dot_S2048x32768_S32768x128_S2048x128_1_0_0_1_n_n.rhsBatch by decide), dif_pos (show (1 : Fin S32768x128.rank) ∈ dot_S2048x32768_S32768x128_S2048x128_1_0_0_1_n_n.rhsNonContracting by decide)]
  rfl

theorem dot2_apply (L : FVec Ideal S2048x32768 .f32) (R : FVec Ideal S32768x128 .f32) (p : Fin 2048) (c : Fin 128) :
    Host.dotGeneral dot_S2048x32768_S32768x128_S2048x128_1_0_0_1_n_n none L R (ix2 p c) = ∑ k : Fin 32768, L (ix2 p k) * R (ix2 k c) := by
  simp only [Host.dotGeneral]
  rw [Ideal.dotGeneral_apply, ← Equiv.sum_comp (ValueIdx.contrEquiv1 dot_S2048x32768_S32768x128_S2048x128_1_0_0_1_n_n 32768 rfl rfl).symm]
  refine Finset.sum_congr rfl fun k _ => ?_
  have hk := ValueIdx.contrEquiv1_symm_val dot_S2048x32768_S32768x128_S2048x128_1_0_0_1_n_n 32768 rfl rfl k
  have el : dot_S2048x32768_S32768x128_S2048x128_1_0_0_1_n_n.lhsIdx (ix2 p c) ((ValueIdx.contrEquiv1 dot_S2048x32768_S32768x128_S2048x128_1_0_0_1_n_n 32768 rfl rfl).symm k) = ix2 p k := funext fun a => Fin.ext (by
    match a with
    | ⟨0, _⟩ => exact lhs_dot2_0 _ _
    | ⟨1, _⟩ => exact (lhs_dot2_1 _ _).trans hk)
  have er : dot_S2048x32768_S32768x128_S2048x128_1_0_0_1_n_n.rhsIdx (ix2 p c) ((ValueIdx.contrEquiv1 dot_S2048x32768_S32768x128_S2048x128_1_0_0_1_n_n 32768 rfl rfl).symm k) = ix2 k c := funext fun a => Fin.ext (by
    match a with
    | ⟨0, _⟩ => exact (rhs_dot2_0 _ _).trans hk
    | ⟨1, _⟩ => exact rhs_dot2_1 _ _)
  rw [el, er]

/-! The [32768,2048] · [2048,128] product: the operand indices, axis by axis, then the element as the sum over the contracted axis. -/

theorem lhs_dot3_0 (i : S32768x128.Idx) (q : dot_S32768x2048_S2048x128_S32768x128_1_0_0_1_n_n.contr.Idx) :
    (dot_S32768x2048_S2048x128_S32768x128_1_0_0_1_n_n.lhsIdx i q 0).val = (i 0).val := by
  unfold DotDims.lhsIdx
  rw [dif_neg (show ¬(0 : Fin S32768x2048.rank) ∈ dot_S32768x2048_S2048x128_S32768x128_1_0_0_1_n_n.lhsBatch by decide), dif_pos (show (0 : Fin S32768x2048.rank) ∈ dot_S32768x2048_S2048x128_S32768x128_1_0_0_1_n_n.lhsNonContracting by decide)]
  rfl
theorem lhs_dot3_1 (i : S32768x128.Idx) (q : dot_S32768x2048_S2048x128_S32768x128_1_0_0_1_n_n.contr.Idx) :
    (dot_S32768x2048_S2048x128_S32768x128_1_0_0_1_n_n.lhsIdx i q 1).val = (q ⟨0, by decide⟩).val :=
  dot_S32768x2048_S2048x128_S32768x128_1_0_0_1_n_n.lhsIdx_val_of_single rfl i q
theorem rhs_dot3_0 (i : S32768x128.Idx) (q : dot_S32768x2048_S2048x128_S32768x128_1_0_0_1_n_n.contr.Idx) :
    (dot_S32768x2048_S2048x128_S32768x128_1_0_0_1_n_n.rhsIdx i q 0).val = (q ⟨0, by decide⟩).val :=
  dot_S32768x2048_S2048x128_S32768x128_1_0_0_1_n_n.rhsIdx_val_of_single rfl i q
theorem rhs_dot3_1 (i : S32768x128.Idx) (q : dot_S32768x2048_S2048x128_S32768x128_1_0_0_1_n_n.contr.Idx) :
    (dot_S32768x2048_S2048x128_S32768x128_1_0_0_1_n_n.rhsIdx i q 1).val = (i 1).val := by
  unfold DotDims.rhsIdx
  rw [dif_neg (show ¬(1 : Fin S2048x128.rank) ∈ dot_S32768x2048_S2048x128_S32768x128_1_0_0_1_n_n.rhsBatch by decide), dif_pos (show (1 : Fin S2048x128.rank) ∈ dot_S32768x2048_S2048x128_S32768x128_1_0_0_1_n_n.rhsNonContracting by decide)]
  rfl

theorem dot3_apply (L : FVec Ideal S32768x2048 .f32) (R : FVec Ideal S2048x128 .f32) (p : Fin 32768) (c : Fin 128) :
    Host.dotGeneral dot_S32768x2048_S2048x128_S32768x128_1_0_0_1_n_n none L R (ix2 p c) = ∑ k : Fin 2048, L (ix2 p k) * R (ix2 k c) := by
  simp only [Host.dotGeneral]
  rw [Ideal.dotGeneral_apply, ← Equiv.sum_comp (ValueIdx.contrEquiv1 dot_S32768x2048_S2048x128_S32768x128_1_0_0_1_n_n 2048 rfl rfl).symm]
  refine Finset.sum_congr rfl fun k _ => ?_
  have hk := ValueIdx.contrEquiv1_symm_val dot_S32768x2048_S2048x128_S32768x128_1_0_0_1_n_n 2048 rfl rfl k
  have el : dot_S32768x2048_S2048x128_S32768x128_1_0_0_1_n_n.lhsIdx (ix2 p c) ((ValueIdx.contrEquiv1 dot_S32768x2048_S2048x128_S32768x128_1_0_0_1_n_n 2048 rfl rfl).symm k) = ix2 p k := funext fun a => Fin.ext (by
    match a with
    | ⟨0, _⟩ => exact lhs_dot3_0 _ _
    | ⟨1, _⟩ => exact (lhs_dot3_1 _ _).trans hk)
  have er : dot_S32768x2048_S2048x128_S32768x128_1_0_0_1_n_n.rhsIdx (ix2 p c) ((ValueIdx.contrEquiv1 dot_S32768x2048_S2048x128_S32768x128_1_0_0_1_n_n 2048 rfl rfl).symm k) = ix2 k c := funext fun a => Fin.ext (by
    match a with
    | ⟨0, _⟩ => exact (rhs_dot3_0 _ _).trans hk
    | ⟨1, _⟩ => exact rhs_dot3_1 _ _)
  rw [el, er]

/-! The [32768,160] · [160,128] product: the operand indices, axis by axis, then the element as the sum over the contracted axis. -/

theorem lhs_dot4_0 (i : S32768x128.Idx) (q : dot_S32768x160_S160x128_S32768x128_1_0_0_1_n_n.contr.Idx) :
    (dot_S32768x160_S160x128_S32768x128_1_0_0_1_n_n.lhsIdx i q 0).val = (i 0).val := by
  unfold DotDims.lhsIdx
  rw [dif_neg (show ¬(0 : Fin S32768x160.rank) ∈ dot_S32768x160_S160x128_S32768x128_1_0_0_1_n_n.lhsBatch by decide), dif_pos (show (0 : Fin S32768x160.rank) ∈ dot_S32768x160_S160x128_S32768x128_1_0_0_1_n_n.lhsNonContracting by decide)]
  rfl
theorem lhs_dot4_1 (i : S32768x128.Idx) (q : dot_S32768x160_S160x128_S32768x128_1_0_0_1_n_n.contr.Idx) :
    (dot_S32768x160_S160x128_S32768x128_1_0_0_1_n_n.lhsIdx i q 1).val = (q ⟨0, by decide⟩).val :=
  dot_S32768x160_S160x128_S32768x128_1_0_0_1_n_n.lhsIdx_val_of_single rfl i q
theorem rhs_dot4_0 (i : S32768x128.Idx) (q : dot_S32768x160_S160x128_S32768x128_1_0_0_1_n_n.contr.Idx) :
    (dot_S32768x160_S160x128_S32768x128_1_0_0_1_n_n.rhsIdx i q 0).val = (q ⟨0, by decide⟩).val :=
  dot_S32768x160_S160x128_S32768x128_1_0_0_1_n_n.rhsIdx_val_of_single rfl i q
theorem rhs_dot4_1 (i : S32768x128.Idx) (q : dot_S32768x160_S160x128_S32768x128_1_0_0_1_n_n.contr.Idx) :
    (dot_S32768x160_S160x128_S32768x128_1_0_0_1_n_n.rhsIdx i q 1).val = (i 1).val := by
  unfold DotDims.rhsIdx
  rw [dif_neg (show ¬(1 : Fin S160x128.rank) ∈ dot_S32768x160_S160x128_S32768x128_1_0_0_1_n_n.rhsBatch by decide), dif_pos (show (1 : Fin S160x128.rank) ∈ dot_S32768x160_S160x128_S32768x128_1_0_0_1_n_n.rhsNonContracting by decide)]
  rfl

theorem dot4_apply (L : FVec Ideal S32768x160 .f32) (R : FVec Ideal S160x128 .f32) (p : Fin 32768) (c : Fin 128) :
    Host.dotGeneral dot_S32768x160_S160x128_S32768x128_1_0_0_1_n_n none L R (ix2 p c) = ∑ k : Fin 160, L (ix2 p k) * R (ix2 k c) := by
  simp only [Host.dotGeneral]
  rw [Ideal.dotGeneral_apply, ← Equiv.sum_comp (ValueIdx.contrEquiv1 dot_S32768x160_S160x128_S32768x128_1_0_0_1_n_n 160 rfl rfl).symm]
  refine Finset.sum_congr rfl fun k _ => ?_
  have hk := ValueIdx.contrEquiv1_symm_val dot_S32768x160_S160x128_S32768x128_1_0_0_1_n_n 160 rfl rfl k
  have el : dot_S32768x160_S160x128_S32768x128_1_0_0_1_n_n.lhsIdx (ix2 p c) ((ValueIdx.contrEquiv1 dot_S32768x160_S160x128_S32768x128_1_0_0_1_n_n 160 rfl rfl).symm k) = ix2 p k := funext fun a => Fin.ext (by
    match a with
    | ⟨0, _⟩ => exact lhs_dot4_0 _ _
    | ⟨1, _⟩ => exact (lhs_dot4_1 _ _).trans hk)
  have er : dot_S32768x160_S160x128_S32768x128_1_0_0_1_n_n.rhsIdx (ix2 p c) ((ValueIdx.contrEquiv1 dot_S32768x160_S160x128_S32768x128_1_0_0_1_n_n 160 rfl rfl).symm k) = ix2 k c := funext fun a => Fin.ext (by
    match a with
    | ⟨0, _⟩ => exact (rhs_dot4_0 _ _).trans hk
    | ⟨1, _⟩ => exact rhs_dot4_1 _ _)
  rw [el, er]

/-! The stages. -/

theorem linH_apply (H : FVec Ideal S32768x128 .f32) (W : FVec Ideal S128x128 .f32) (e : Fin 32768) (j : Fin 128) :
    linH H W (ix2 e j) = ∑ k : Fin 128, H (ix2 e k) * W (ix2 j k) := by
  unfold linH
  rw [dot1_apply]
  exact Finset.sum_congr rfl fun k _ => by rw [tr128_apply]

theorem pre1H_apply (X : FVec Ideal S32768x128 .f32) (W : FVec Ideal S128x128 .f32) (b : FVec Ideal S128 .f32) (e : Fin 32768) (k : Fin 128) :
    pre1H X W b (ix2 e k) = (∑ q : Fin 128, X (ix2 e q) * W (ix2 k q)) + b (ix1 k) := by
  unfold pre1H
  rw [addf_apply, linH_apply, biasH_apply]

/-- The tail both perceptrons share: once the pre-activation row is the affine form of a row x, the chain, the
    product with the second weights and the chain again give the perceptron's row. -/
theorem mlpTail {K : Nat} (P : FVec Ideal S32768x128 .f32) (W2 : FVec Ideal S128x128 .f32) (x : Fin K → EReal) (A : Arr K 128)
    (r : Arr 1 128) (e : Fin 32768) (j : Fin 128)
    (hP : ∀ k : Fin 128, P (ix2 e k) = (∑ q : Fin K, x q * A (ix2 q k)) + r (ix2 (0 : Fin 1) k)) :
    logSigH (linH (logSigH P) W2) (ix2 e j) = mlpRow x A r (tr W2) j := by
  rw [logSigH_apply, linH_apply]
  unfold mlpRow
  refine congrArg lsig (Finset.sum_congr rfl fun k _ => ?_)
  rw [logSigH_apply, hP k]
  rfl

theorem msgH_eq (X : FVec Ideal S32768x128 .f32) (W1 : FVec Ideal S128x128 .f32) (b1 : FVec Ideal S128 .f32) (W2 : FVec Ideal S128x128 .f32) :
    msgH X W1 b1 W2 = sOf X (tr W1) (row b1) (tr W2) := by
  funext i
  obtain ⟨e, j, rfl⟩ : ∃ (e : Fin 32768) (j : Fin 128), i = ix2 e j := ⟨i 0, i 1, eq_ix2 i⟩
  unfold msgH
  rw [mlpTail (pre1H X W1 b1) W2 (fun q => X (ix2 e q)) (tr W1) (row b1) e j (fun k => by rw [pre1H_apply]; rfl)]
  rfl

theorem catH_apply (s : FVec Ideal S32768x128 .f32) (Fe : FVec Ideal S32768x32 .f32) (M : FVec Ideal S2048x32768 .f32)
    (MT : FVec Ideal S32768x2048 .f32) (e : Fin 32768) (q : Fin 160) :
    catH s Fe M MT (ix2 e q) = catRow MT (aggOf M s) s Fe e q := by
  unfold catH catRow
  by_cases h : q.val < 128
  · rw [dif_pos h, cat_left _ _ e q h, subf_apply, dot3_apply]
    unfold msgRow
    refine congrArg (· - s (ix2 e ⟨q.val, h⟩)) (Finset.sum_congr rfl fun n _ => ?_)
    rw [dot2_apply]
    rfl
  · rw [dif_neg h, cat_right _ _ e q h]

theorem pre2H_apply (s : FVec Ideal S32768x128 .f32) (Fe : FVec Ideal S32768x32 .f32) (M : FVec Ideal S2048x32768 .f32)
    (MT : FVec Ideal S32768x2048 .f32) (W : FVec Ideal S128x160 .f32) (b : FVec Ideal S128 .f32) (e : Fin 32768) (k : Fin 128) :
    pre2H s Fe M MT W b (ix2 e k) = (∑ q : Fin 160, catRow MT (aggOf M s) s Fe e q * W (ix2 k q)) + b (ix1 k) := by
  unfold pre2H
  rw [addf_apply, dot4_apply, biasH_apply]
  refine congrArg (· + b (ix1 k)) (Finset.sum_congr rfl fun q _ => ?_)
  rw [catH_apply, tr160_apply]

/-- The reference's composed term at the ideal values is the specification. -/
theorem refOut_eq (X : FVec Ideal S32768x128 .f32) (Fe : FVec Ideal S32768x32 .f32) (M : FVec Ideal S2048x32768 .f32)
    (MT : FVec Ideal S32768x2048 .f32) (W1m : FVec Ideal S128x128 .f32) (b1m : FVec Ideal S128 .f32) (W2m : FVec Ideal S128x128 .f32)
    (W1a : FVec Ideal S128x160 .f32) (b1a : FVec Ideal S128 .f32) (W2a : FVec Ideal S128x128 .f32) :
    refOut X Fe M MT W1m b1m W2m W1a b1a W2a = out X Fe M MT W1m b1m W2m W1a b1a W2a := by
  funext i
  obtain ⟨e, j, rfl⟩ : ∃ (e : Fin 32768) (j : Fin 128), i = ix2 e j := ⟨i 0, i 1, eq_ix2 i⟩
  unfold refOut out
  rw [msgH_eq]
  generalize sOf X (tr W1m) (row b1m) (tr W2m) = S
  rw [mlpTail (pre2H S Fe M MT W1a b1a) W2a (catRow MT (aggOf M S) S Fe e) (tr W1a) (row b1a) e j
    (fun k => by rw [pre2H_apply]; rfl)]
  rfl

end Read

/-! ## The reference's run, at the ideal values -/

/-- Every weakly fair execution of the reference terminates with its result array the specification's function of
    the ten argument arrays, and those unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21)
          = out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run (defs (F := Ideal)) _ _).mono (fun _ h c =>
      ⟨(h c main_v21).trans ((after_v21 (launchContents m c)).trans (refOut_eq _ _ _ _ _ _ _ _ _ _)),
       (h c main_arg0).trans (after_arg0 (launchContents m c)),
       (h c main_arg1).trans (after_arg1 (launchContents m c)),
       (h c main_arg2).trans (after_arg2 (launchContents m c)),
       (h c main_arg3).trans (after_arg3 (launchContents m c)),
       (h c main_arg4).trans (after_arg4 (launchContents m c)),
       (h c main_arg5).trans (after_arg5 (launchContents m c)),
       (h c main_arg6).trans (after_arg6 (launchContents m c)),
       (h c main_arg7).trans (after_arg7 (launchContents m c)),
       (h c main_arg8).trans (after_arg8 (launchContents m c)),
       (h c main_arg9).trans (after_arg9 (launchContents m c))⟩)
    (run_ops m ρ)

end Cert.ReferenceIdeal.RefValue

end
-- ==== Proof.lean ====
/-
  The certificate: a Pallas kernel in two launches — an edge-wise perceptron with per-node aggregation, then a second
  perceptron over the scattered-back aggregates beside the features — against its jnp reference, over the extended reals.

  Both programs compute `Cert.EdgeMlp.out` of the ten inputs (Proof/Spec.lean): the reference by one straight line of
  host operations (Proof/RefValue.lean), the kernel by three stretches chained through what each leaves for the next
  (Proof/KernelValue.lean over Proof/StageOne.lean and Proof/StageTwo.lean). The only facts of arithmetic used are that
  finite sums of extended reals may be re-indexed and re-associated (the kernel sums over edges tile by tile), that
  0 − x = −x and x − 0 = x, 0 + x = x, and that a comparison of a value with itself for inequality is false, so the
  log-sigmoid's guard for undefined values never fires; no input needs to be finite for any of them.
  The ideal pass rewrote nothing, so the kernel's idealization is its own text read over the extended reals.
-/
import proofs.«152187_j6468220748479_1_alg».proof.Defs
import proofs.«152187_j6468220748479_1_alg».proof.Proof.Gen.Kernel
import proofs.«152187_j6468220748479_1_alg».proof.Proof.Gen.Kernel.Frame
import proofs.«152187_j6468220748479_1_alg».proof.Proof.Gen.KernelIdeal
import proofs.«152187_j6468220748479_1_alg».proof.Proof.Gen.KernelIdeal.Frame
import proofs.«152187_j6468220748479_1_alg».proof.Proof.Gen.ReferenceIdeal
import proofs.«152187_j6468220748479_1_alg».proof.Proof.Gen.Pre_finite_inputs
import proofs.«152187_j6468220748479_1_alg».proof.Proof.KernelValue
import proofs.«152187_j6468220748479_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.RefValue.run m ρ)

/-- No operation was rewritten by the ideal pass. -/
theorem preserves : Cert.preserves_Kernel_KernelIdeal := trivial

/-- From memories agreeing on the ten inputs both programs end with the same array: `Cert.EdgeMlp.out` of them. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1,
    (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
